-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S2x1600000 : Shape := ⟨2, ![2, 1600000]⟩
abbrev S128x1024 : Shape := ⟨2, ![128, 1024]⟩
abbrev S128 : Shape := ⟨1, ![128]⟩
abbrev S128x128 : Shape := ⟨2, ![128, 128]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128 .f32) (main_arg6 : FVec F S128x128 .f32) (main_arg7 : FVec F S128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x1024 .f32) (main_arg1 : IVec S2x1600000 32) (main_arg2 : FVec F S128x1024 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128x128 .f32) (main_arg10 : FVec F S128 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x1024 : Shape := ⟨2, ![50000, 1024]⟩
abbrev S2x1600000 : Shape := ⟨2, ![2, 1600000]⟩
abbrev S128x1024 : Shape := ⟨2, ![128, 1024]⟩
abbrev S128 : Shape := ⟨1, ![128]⟩
abbrev S128x128 : Shape := ⟨2, ![128, 128]⟩
abbrev S1024x128 : Shape := ⟨2, ![1024, 128]⟩
abbrev S50000x128 : Shape := ⟨2, ![50000, 128]⟩
abbrev S2000x1024 : Shape := ⟨2, ![2000, 1024]⟩
abbrev S2000x128 : Shape := ⟨2, ![2000, 128]⟩
abbrev S1x128 : Shape := ⟨2, ![1, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S2000 : Shape := ⟨1, ![2000]⟩
abbrev S2000x1 : Shape := ⟨2, ![2000, 1]⟩

abbrev nBuf : Space → Nat
  | .hbm => 50
  | .vmem => 19
  | .smem => 0
  | _ => 0

abbrev bufTy : (tb : Table) → Fin (tcTables nBuf tb) → BufTy
  | .hbm, ⟨0, _⟩ => ⟨S50000x1024, .f32⟩
  | .hbm, ⟨1, _⟩ => ⟨S2x1600000, .i32⟩
  | .hbm, ⟨2, _⟩ => ⟨S128x1024, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1024x128, .f32⟩
  | .hbm, ⟨12, _⟩ => ⟨S1024x128, .bf16⟩
  | .hbm, ⟨13, _⟩ => ⟨S50000x128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S50000x128, .f32⟩
  | .hbm, ⟨29, _⟩ => ⟨S1600000x1, .i32⟩
  | .hbm, ⟨30, _⟩ => ⟨S50000x128, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S50000, .f32⟩
  | .hbm, ⟨35, _⟩ => ⟨S1600000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S128x128, .f32⟩
  | .hbm, ⟨44, _⟩ => ⟨S128x128, .bf16⟩
  | .hbm, ⟨45, _⟩ => ⟨S128x128, .f32⟩
  | .hbm, ⟨46, _⟩ => ⟨S128x128, .bf16⟩
  | .hbm, ⟨47, _⟩ => ⟨S128x128, .f32⟩
  | .hbm, ⟨48, _⟩ => ⟨S128x128, .bf16⟩
  | .hbm, ⟨49, _⟩ => ⟨S1x128, .f32⟩
  | .local _ .vmem, ⟨0, _⟩ => ⟨S2000x1024, .f32⟩
  | .local _ .vmem, ⟨1, _⟩ => ⟨S2000x1024, .f32⟩
  | .local _ .vmem, ⟨2, _⟩ => ⟨S1024x128, .bf16⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .bf16⟩
  | .local _ .vmem, ⟨11, _⟩ => ⟨S128, .f32⟩
  | .local _ .vmem, ⟨12, _⟩ => ⟨S128x128, .bf16⟩
  | .local _ .vmem, ⟨13, _⟩ => ⟨S128, .f32⟩
  | .local _ .vmem, ⟨14, _⟩ => ⟨S128, .f32⟩
  | .local _ .vmem, ⟨15, _⟩ => ⟨S128x128, .bf16⟩
  | .local _ .vmem, ⟨16, _⟩ => ⟨S128, .f32⟩
  | .local _ .vmem, ⟨17, _⟩ => ⟨S1x128, .f32⟩
  | .local _ .vmem, ⟨18, _⟩ => ⟨S1x128, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v55 : BitVec 1 := Scalar.cmpi .eq arg0 c24_i32
  let v56 : BitVec 32 := Scalar.extui v55
  let c0_i32_23 : BitVec 32 := 0#32
  let v57 : BitVec 1 := Scalar.cmpi .ne v56 c0_i32_23
  v57

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  transposes_S128x1024_S1024x128_1_0 : S128x1024.Transposes [1, 0] S1024x128
  bitsLt_bf16_f32 : FTy.bits .bf16 < FTy.bits .f32
  inb_S2000x1024_S2000x1024_0_0 : ∀ a, (![0, 0] : Fin 2 → Nat) a + S2000x1024.size a ≤ S2000x1024.size a
  h_S2000x1024 : 0 < S2000x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S2000x128_S2000 : S2000x128.Reduces [1] S2000
  shapeCasts_S2000_S2000x1 : S2000.ShapeCasts S2000x1
  broadcasts_S2000x1_S2000x128 : S2000x1.Broadcasts S2000x128
  reduces_S2000x128_S128 : S2000x128.Reduces [0] S128
  dot_S2000x1024_S1024x128_S2000x128_1_0_0_1_n_n_wf : DotDims.WF S2000x1024 S1024x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S2000x128_S128x128_S2000x128_1_0_0_1_n_n_wf : DotDims.WF S2000x128 S128x128 S2000x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)

variable [Facts₀]

def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | ⟨_ + 10, h⟩ => absurd h (Nat.not_lt.2 (Nat.le_add_left _ _))

class Facts : Prop extends Facts₀ where

variable [Facts]
-- ==== ReferenceIdeal.lean ====
abbrev S50000x1024 : Shape := ⟨2, ![50000, 1024]⟩
abbrev S2x1600000 : Shape := ⟨2, ![2, 1600000]⟩
abbrev S128x1024 : Shape := ⟨2, ![128, 1024]⟩
abbrev S128 : Shape := ⟨1, ![128]⟩
abbrev S128x128 : Shape := ⟨2, ![128, 128]⟩
abbrev S1024x128 : Shape := ⟨2, ![1024, 128]⟩
abbrev S50000x128 : Shape := ⟨2, ![50000, 128]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩

abbrev nBuf : Space → Nat
  | .hbm => 98
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S2x1600000, .i32⟩
  | .hbm, ⟨2, _⟩ => ⟨S128x1024, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1024x128, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S_, .f32⟩
  | .hbm, ⟨17, _⟩ => ⟨S50000x128, .f32⟩
  | .hbm, ⟨18, _⟩ => ⟨S50000x128, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S50000x128, .f32⟩
  | .hbm, ⟨34, _⟩ => ⟨S1600000x1, .i32⟩
  | .hbm, ⟨35, _⟩ => ⟨S50000x128, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S50000, .f32⟩
  | .hbm, ⟨40, _⟩ => ⟨S1600000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S128x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S128x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000, .f32⟩
  | .hbm, ⟨58, _⟩ => ⟨S50000x1, .f32⟩
  | .hbm, ⟨59, _⟩ => ⟨S_, .f32⟩
  | .hbm, ⟨60, _⟩ => ⟨S50000x1, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000, .f32⟩
  | .hbm, ⟨67, _⟩ => ⟨S50000x1, .f32⟩
  | .hbm, ⟨68, _⟩ => ⟨S_, .f32⟩
  | .hbm, ⟨69, _⟩ => ⟨S50000x1, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x1, .f32⟩
  | .hbm, ⟨75, _⟩ => ⟨S50000x1, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S128, .f32⟩
  | .hbm, ⟨90, _⟩ => ⟨S1x128, .f32⟩
  | .hbm, ⟨91, _⟩ => ⟨S_, .f32⟩
  | .hbm, ⟨92, _⟩ => ⟨S1x128, .f32⟩
  | .hbm, ⟨93, _⟩ => ⟨S1x128, .f32⟩
  | .hbm, ⟨94, _⟩ => ⟨S128x128, .f32⟩
  | .hbm, ⟨95, _⟩ => ⟨S1x128, .f32⟩
  | .hbm, ⟨96, _⟩ => ⟨S1x128, .f32⟩
  | .hbm, ⟨97, _⟩ => ⟨S1x128, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_cst_9 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  transposes_S128x1024_S1024x128_1_0 : S128x1024.Transposes [1, 0] S1024x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  reducesTo_S50000x128_S50000_d1 : S50000x128.ReducesTo [1] S50000
  h_S_ : 0 < S_.numel
  bcast_S_S50000x1 : S_.BroadcastsInDim S50000x1 (![] : Fin 0 → Fin S50000x1.rank)
  reducesTo_S50000x128_S128_d0 : S50000x128.ReducesTo [0] S128
  bcast_S_S1x128 : S_.BroadcastsInDim S1x128 (![] : Fin 0 → Fin S1x128.rank)
  dot_S50000x1024_S1024x128_S50000x128_1_0_0_1_n_n_wf : DotDims.WF S50000x1024 S1024x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  dot_S1x128_S128x128_S1x128_1_0_0_1_n_n_wf : DotDims.WF S1x128 S128x128 S1x128 [1] [0] [0] [1] [] []

variable [Facts₀]

def dot_S50000x1024_S1024x128_S50000x128_1_0_0_1_n_n : DotDims S50000x1024 S1024x128 S50000x128 where
  lhsContracting := [1]
  rhsContracting := [0]
  lhsNonContracting := [0]
  rhsNonContracting := [1]
  lhsBatch := []
  rhsBatch := []
  wf := dot_S50000x1024_S1024x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

class Facts : Prop extends Facts₀ where

variable [Facts]
-- ==== Proof.KI.Defs0.lean ====
/-
  Region 0 (the projection kernel): what its proof data are, at any contents `V` of the core's buffers on entry.
  A window's block at a grid point is read off its array; the three inputs (a 2000-row tile of x, the whole transposed
  weight, the whole bias) are left in place by the body, and the output block is the body's one stored value: relu of the
  tile times the weight plus the bias, as ONE pure function of the three input blocks.
-/
import proofs.«141488_j51153060495543_1_alg».proof.Proof.Gen.KernelIdeal.Launch
import proofs.«141488_j51153060495543_1_alg».proof.Proof.Gen.KernelIdeal.Skeleton
import proofs.«141488_j51153060495543_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block of a point: the body's stored value of the three input blocks. -/
def o0 (x0 : Vec F S2000x1024 .f32) (x1 : Vec F S1024x128 .bf16) (x2 : Vec F S128 .f32) : Vec F S2000x128 .f32 :=
  k0_pay1 x0 x1 x2

/-- The proof data of region 0 on core `c`: arrays as found; inputs left in place, the output block at `o0` of the
    input blocks; the invariant is the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => o0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = o0 (iblk0 V c 0 t) (iblk0 V c 1 t) (iblk0 V c 2 t) := by dsimp only [dat0]

end Cert.KernelIdeal.Hand

end
-- ==== Proof.KI.Body0.lean ====
/-
  Region 0 (the projection kernel): the body's obligation. At every grid point the body reads its three input blocks
  whole (the tile of x, the transposed weight, the bias), reads the output block (the value is not used), and stores
  ONE value over the whole output block: relu of the tile times the weight plus the bias. The inputs are left as found;
  a block stored whole through the zero-offset rectangle reads back as the stored value itself.
-/
import proofs.«141488_j51153060495543_1_alg».proof.Proof.KI.Defs0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The zero offsets of the body's whole-block accesses -/

/-- The offset of a whole two-axis block is zero on both axes, -/
theorem proj_off2 : (![0, 0] : Fin 2 → Nat) = fun _ => 0 := funext fun a => by fin_cases a <;> rfl
/-- and of a whole one-axis block on its one axis. -/
theorem proj_off1 : (![0] : Fin 1 → Nat) = fun _ => 0 := funext fun a => by fin_cases a <;> rfl

/-! ## Each input's buffer holds its block at every point, fetched there or not -/

/-- The tile of x (fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The transposed weight (fetched at the first point only: afterwards its block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias (fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

/-- The output block's one store is through the whole-block rectangle, which holds every index. -/
theorem cover_proj0 (p0 : Vec F S2000x128 .f32) (y : S2000x128.Idx) :
    ∃ pc ∈ ([⟨Rect.unit (s := S2000x128) ![0, 0] S2000x128.size inb_S2000x128_S2000x128_0_0, p0⟩] :
      List (View.Piece (Elt F) S2000x128 .f32)), y ∈ pc.1.set :=
  ⟨_, List.mem_singleton_self _, View.mem_set_unit_zero proj_off2 inb_S2000x128_S2000x128_0_0 y⟩

set_option maxHeartbeats 1000000 in
/-- The body on whole memrefs, the three inputs' at contents `x0 x1 x2` and the output's at anything, runs to the
    continuation holding the inputs' as they were and the output's at `o0 x0 x1 x2`. -/
theorem sound_proj0 (c : Dev nD) (E : Set ℕ) (i : grid0.Coords)
    (arg1 : Memref sig .tc .vmem S2000x1024 .f32) (harg1 : arg1.IsWhole)
    (arg2 : Memref sig .tc .vmem S1024x128 .bf16) (harg2 : arg2.IsWhole)
    (arg3 : Memref sig .tc .vmem S128 .f32) (harg3 : arg3.IsWhole)
    (arg4 : Memref sig .tc .vmem S2000x128 .f32) (harg4 : arg4.IsWhole)
    (x0 : Vec F S2000x1024 .f32) (x1 : Vec F S1024x128 .bf16) (x2 : Vec F S128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (o0 x0 x1 x2)) -∗ K ⟨⟩))
      ⊢ wp frame (wpE (defs₀ (F := F)) Variants.none c none) E (cc0__proj_relu_kernel i arg1 harg1 arg2 harg2 arg3 harg3 arg4 harg4) K := by
  simp only [cc0__proj_relu_kernel_eq_skeleton]; unfold cc0__proj_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_proj0 _), View.canon_unit_zero proj_off2]
  simp only [View.readAt_eq_ld, View.ld_unit_zero (S := S2000x1024) proj_off2, View.ld_unit_zero (S := S1024x128) proj_off2,
    View.ld_unit_zero (S := S128) proj_off1]
  rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_proj0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Defs1.lean ====
/-
  Region 1 (the combine kernel): what its proof data are, at any contents `V` of the core's buffers on entry.
  The nine inputs (a 2000-row tile of the mean-neighbour array and of the hidden array, and seven whole weight and bias
  arrays) are left in place. The kernel keeps a running [1,128] sum in a scratch buffer across its 25 grid points: the
  first point resets it to zero, every point adds the column sums of its rectified, normalised tile (`sc1`, ONE pure
  function of the seven blocks the point uses and of what the scratch held), and the last point stores the output block
  from the scratch it has just updated (`o1`). `scAt1 n` is the scratch after point `n`; the region's invariant after a
  point holds the scratch at exactly that.
-/
import proofs.«141488_j51153060495543_1_alg».proof.Proof.Gen.KernelIdeal.Launch
import proofs.«141488_j51153060495543_1_alg».proof.Proof.Gen.KernelIdeal.Skeleton
import proofs.«141488_j51153060495543_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What a point leaves in the scratch: what it held (`xs`) plus the column sums of the rectified, normalised combine of
    the mean-neighbour tile `x0` and the hidden tile `x1` under the weights `x2` (left), `x4` (right), the bias `x3`, the
    gain `x5` and the shift `x6`. -/
def sc1 (x0 x1 : Vec F S2000x128 .f32) (x2 : Vec F S128x128 .bf16) (x3 : Vec F S128 .f32) (x4 : Vec F S128x128 .bf16)
    (x5 x6 : Vec F S128 .f32) (xs : Vec F S1x128 .f32) : Vec F S1x128 .f32 :=
  k1_pay1 (k1_pay4 x0 x1 x2 x4 x3) x5 x6 xs

/-- What the last point stores into the output block: the scratch it has just updated (`xs`), scaled, times the output
    weight `x7`, plus the output bias `x8`. -/
def o1 (xs : Vec F S1x128 .f32) (x7 : Vec F S128x128 .bf16) (x8 : Vec F S128 .f32) : Vec F S1x128 .f32 :=
  k1_pay2 xs x7 x8

/-- The scratch after the body at point `n`: from the zero the first point resets it to, each point's `sc1`. -/
def scAt1 (c : Dev nD) : (n : ℕ) → n < cfg1.N → Vec F S1x128 .f32
  | 0, hn => sc1 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (k1_pay3 (F := F))
  | n + 1, hn => sc1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (scAt1 c n (Nat.lt_of_succ_lt hn))

theorem scAt1_zero (c : Dev nD) (hn : 0 < cfg1.N) :
    scAt1 V c 0 hn = sc1 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (k1_pay3 (F := F)) := rfl

theorem scAt1_succ (c : Dev nD) (n : ℕ) (hn : n + 1 < cfg1.N) :
    scAt1 V c (n + 1) hn = sc1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (scAt1 V c n (Nat.lt_of_succ_lt hn)) := rfl

/-- The scratch operand: a whole scoped buffer of the kernel's own, passed beside the windows. -/
abbrev scM1 : Memref sig .tc .vmem S1x128 .f32 := Memref.whole cc1_scratch0

/-- The region's invariant before position `n`: before the first point every scoped buffer the region does not stage at
    anything and the generator register at some state; afterwards the same with the scratch at what the point before
    left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (scAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (scAt1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (scAt1 V c (n - 1) (by omega))) ∗ (∃ r, prngReg c r)) := by
  cases n with
  | zero => exact absurd rfl hz
  | succ n => rfl

/-- The class's invariant with the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1 fullShare d)) ∗ (∃ r, prngReg c r)) := by
  unfold Pipeline.ΦA; rw [scopedRest1_eq]; simp only [scM1, owns_whole]; try rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => o1 (scAt1 V c t.val t.isLt) (iblk1 V c 7 t) (iblk1 V c 8 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) :
    (dat1 V c).after 9 t = o1 (scAt1 V c t.val t.isLt) (iblk1 V c 7 t) (iblk1 V c 8 t) := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨H0, H1, H2, H3, H4, H5, HS⟩, Hg⟩
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexists _; iexact HS
  iexact Hg

theorem hout1 (c : Dev nD) : (dat1 V c).Φ (Fin.last cfg1.N) ⊢ Pipeline.ΦA spec1 c :=
  Phi_out1 V c _ (by rw [Fin.val_last]; have : cfg1.N = 25 := N_1; omega)

end Cert.KernelIdeal.Hand

end
-- ==== Proof.KI.Body1Runs.lean ====
/-
  The combine kernel's body run once per control case, on whole staging memrefs. Its two conditionals test the grid
  coordinate only: the first is taken at the first point (it resets the running sum to zero), the second at the last
  (it stores the output). In every case the nine inputs are read and left as they were and the scratch ends at `sc1` of
  the blocks and of what it held (zero, after the reset); only the last point touches the output block, which it
  leaves at `o1` of the updated scratch.
-/
import proofs.«141488_j51153060495543_1_alg».proof.Proof.KI.Defs1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first conditional's condition (the point is the first), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The second conditional's condition (the point is the last). -/
abbrev cond1_1 (i : grid1.Coords) : Prop := k1_cond2 i = 1#1
/-- It holds at the last point only. -/
theorem hcond1_1 : ∀ t : Fin cfg1.N, cond1_1 (grid1.coords t) ↔ t.val = 24 :=
  (by decide +kernel : ∀ t : Fin grid1.N, cond1_1 (grid1.coords t) ↔ t.val = 24)

/-- Both offsets of a whole two-axis access are zero. -/
private theorem zero2 : (![0, 0] : Fin 2 → Nat) = fun _ => 0 := funext fun a => by fin_cases a <;> rfl
/-- The offset of a whole one-axis access is zero. -/
private theorem zero1 : (![0] : Fin 1 → Nat) = fun _ => 0 := funext fun a => by fin_cases a <;> rfl
/-- Stores whose last one fills the whole [1,128] buffer cover it, whatever came before. -/
private theorem cover_last (p : Vec F S1x128 .f32) (L : List (View.Piece (Elt F) S1x128 .f32)) (y : S1x128.Idx) :
    ∃ pc ∈ ((⟨Rect.unit (s := S1x128) ![0, 0] S1x128.size inb_S1x128_S1x128_0_0, p⟩ : View.Piece (Elt F) S1x128 .f32) :: L), y ∈ pc.1.set :=
  ⟨_, List.mem_cons_self .., View.mem_set_unit_zero (S := S1x128) zero2 inb_S1x128_S1x128_0_0 y⟩

set_option maxHeartbeats 1000000 in
/-- The first point: the scratch, whatever it held, ends at `sc1` over the zero it was reset to; the output block is
    handed back untouched. -/
theorem run1_A (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S128 .f32) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x128 .f32) (harg10 : arg10.IsWhole) (arg11 : Memref sig .tc .vmem S1x128 .f32) (harg11 : arg11.IsWhole)
    (hc0 : cond1_0 i) (hc1 : ¬cond1_1 i) (x0 x1 : Vec F S2000x128 .f32) (x2 : Vec F S128x128 .bf16) (x3 : Vec F S128 .f32) (x4 : Vec F S128x128 .bf16) (x5 x6 : Vec F S128 .f32) (x7 : Vec F S128x128 .bf16) (x8 : Vec F S128 .f32) (xi9 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare (sc1 x0 x1 x2 x3 x4 x5 x6 (k1_pay3 (F := F)))) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11) K := by
  simp only [cc1__combine_kernel_eq_skeleton]; unfold cc1__combine_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  iexists _; isplitr
  swap; · iexact HS
  ipureintro
  rw [View.read_writes_eq_canon _ _ _ (cover_last _ _)]
  sl_unfold_words
  rw [View.canon_cons_unit_zero zero2]
  unfold sc1
  simp only [View.readAt_eq_ld, harg1.read_unread, harg2.read_unread, harg3.read_unread, harg4.read_unread, harg5.read_unread, harg6.read_unread, harg7.read_unread, harg8.read_unread, harg9.read_unread, harg10.read_unread, harg11.read_unread, View.readCov_unit_zero (S := S1x128) _ zero2, View.ld_unit_zero (S := S2000x128) zero2, View.ld_unit_zero (S := S128x128) zero2, View.ld_unit_zero (S := S128) zero1, View.ld_unit_zero (S := S1x128) zero2]

set_option maxHeartbeats 1000000 in
/-- A middle point: the scratch at `xs` ends at `sc1` over `xs`; the output block is handed back untouched. -/
theorem run1_B (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S128 .f32) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x128 .f32) (harg10 : arg10.IsWhole) (arg11 : Memref sig .tc .vmem S1x128 .f32) (harg11 : arg11.IsWhole)
    (hc0 : ¬cond1_0 i) (hc1 : ¬cond1_1 i) (x0 x1 : Vec F S2000x128 .f32) (x2 : Vec F S128x128 .bf16) (x3 : Vec F S128 .f32) (x4 : Vec F S128x128 .bf16) (x5 x6 : Vec F S128 .f32) (x7 : Vec F S128x128 .bf16) (x8 : Vec F S128 .f32) (xi9 : Vec F S1x128 .f32) (xs : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare (sc1 x0 x1 x2 x3 x4 x5 x6 xs)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11) K := by
  simp only [cc1__combine_kernel_eq_skeleton]; unfold cc1__combine_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg10.eq_unread hf9; obtain rfl := harg11.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  iexists _; isplitr
  swap; · iexact HS
  ipureintro
  rw [View.read_writes_eq_canon _ _ _ (cover_last _ _)]
  sl_unfold_words
  rw [View.canon_unit_zero zero2]
  unfold sc1
  simp only [View.readAt_eq_ld, harg1.read_unread, harg2.read_unread, harg3.read_unread, harg4.read_unread, harg5.read_unread, harg6.read_unread, harg7.read_unread, harg8.read_unread, harg9.read_unread, harg10.read_unread, harg11.read_unread, View.readCov_unit_zero (S := S1x128) _ zero2, View.ld_unit_zero (S := S2000x128) zero2, View.ld_unit_zero (S := S128x128) zero2, View.ld_unit_zero (S := S128) zero1, View.ld_unit_zero (S := S1x128) zero2]

set_option maxHeartbeats 1000000 in
/-- The last point: the scratch at `xs` ends at `sc1` over `xs`, and the output block, whatever it held, at `o1` of that. -/
theorem run1_C (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S128 .f32) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x128 .f32) (harg10 : arg10.IsWhole) (arg11 : Memref sig .tc .vmem S1x128 .f32) (harg11 : arg11.IsWhole)
    (hc0 : ¬cond1_0 i) (hc1 : cond1_1 i) (x0 x1 : Vec F S2000x128 .f32) (x2 : Vec F S128x128 .bf16) (x3 : Vec F S128 .f32) (x4 : Vec F S128x128 .bf16) (x5 x6 : Vec F S128 .f32) (x7 : Vec F S128x128 .bf16) (x8 : Vec F S128 .f32) (xs : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (o1 (sc1 x0 x1 x2 x3 x4 x5 x6 xs) x7 x8) ∗ owns (c : Thread nD τ) arg11 fullShare (sc1 x0 x1 x2 x3 x4 x5 x6 xs)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11) K := by
  simp only [cc1__combine_kernel_eq_skeleton]; unfold cc1__combine_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg11.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr
    swap; · iexact H9
    ipureintro
    rw [View.read_writes_eq_canon _ _ _ (cover_last _ _)]
    sl_unfold_words
    rw [View.canon_unit_zero zero2]
    unfold o1 sc1
    simp only [View.readAt_eq_ld, harg1.read_unread, harg2.read_unread, harg3.read_unread, harg4.read_unread, harg5.read_unread, harg6.read_unread, harg7.read_unread, harg8.read_unread, harg9.read_unread, harg10.read_unread, harg11.read_unread, View.readCov_unit_zero (S := S1x128) _ zero2, View.ld_unit_zero (S := S2000x128) zero2, View.ld_unit_zero (S := S128x128) zero2, View.ld_unit_zero (S := S128) zero1, View.ld_unit_zero (S := S1x128) zero2]
  iexists _; isplitr
  swap; · iexact HS
  ipureintro
  sl_unfold_words
  rw [View.read_writes_eq_canon _ _ _ (cover_last _ _)]
  rw [View.canon_unit_zero zero2]
  unfold sc1
  simp only [View.readAt_eq_ld, harg1.read_unread, harg2.read_unread, harg3.read_unread, harg4.read_unread, harg5.read_unread, harg6.read_unread, harg7.read_unread, harg8.read_unread, harg9.read_unread, harg10.read_unread, harg11.read_unread, View.readCov_unit_zero (S := S1x128) _ zero2, View.ld_unit_zero (S := S2000x128) zero2, View.ld_unit_zero (S := S128x128) zero2, View.ld_unit_zero (S := S128) zero1, View.ld_unit_zero (S := S1x128) zero2]

end Cert.KernelIdeal.Hand

end
-- ==== Proof.KI.Body1.lean ====
/-
  Region 1 (the combine kernel): the body obligation at every one of its 25 points.
  Each of the nine input windows is never idle and its current buffer holds the window's block at the point, fetched
  there or not. The output window is idle, and not written back, at every point but the last. Three cases by the point:
  the first (the scratch, at anything, is reset and ends at the first term of the running sum), a middle one (the
  scratch at the sum up to the point before ends at the sum up to this point) and the last (the same, and the output
  block is stored from the scratch just updated). In every case the running sum after the point is the one the
  invariant names at the next position, the six scoped buffers the region does not stage and the generator register
  pass through untouched, and the core owes nothing throughout.
-/
import proofs.«141488_j51153060495543_1_alg».proof.Proof.KI.Body1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- Input window 5 is never idle. -/
theorem liveAt1_5 : ∀ t : Fin cfg1.N, cfg1.idle 5 (grid1.coords t) = false := by decide +kernel
/-- Input window 6 is never idle. -/
theorem liveAt1_6 : ∀ t : Fin cfg1.N, cfg1.idle 6 (grid1.coords t) = false := by decide +kernel
/-- Input window 7 is never idle. -/
theorem liveAt1_7 : ∀ t : Fin cfg1.N, cfg1.idle 7 (grid1.coords t) = false := by decide +kernel
/-- Input window 8 is never idle. -/
theorem liveAt1_8 : ∀ t : Fin cfg1.N, cfg1.idle 8 (grid1.coords t) = false := by decide +kernel
/-- Away from the last point the output window is idle: the body stores nothing into it there. -/
theorem idleAt1_9 : ∀ t : Fin cfg1.N, ¬cond1_1 (grid1.coords t) → cfg1.idle 9 (grid1.coords t) = true := by decide +kernel
/-- Away from the last point the output block is not written back. -/
theorem noFlush1_9 : ∀ t : Fin cfg1.N, ¬cond1_1 (grid1.coords t) → (cfg1.win 9).flush t = false := by decide +kernel
/-- At the last point the output window is live: the body stores into it. -/
theorem liveAt1_9 : ∀ t : Fin cfg1.N, cond1_1 (grid1.coords t) → cfg1.idle 9 (grid1.coords t) = false := by decide +kernel

/-! ## The current staging memrefs -/

/-- Window 0's current staging memref at point `t`. -/
abbrev ms1_0 (t : Fin cfg1.N) : Memref sig .tc .vmem S2000x128 .f32 := win1_0.stage (cfg1.slots t 0)
/-- Window 1's current staging memref at point `t`. -/
abbrev ms1_1 (t : Fin cfg1.N) : Memref sig .tc .vmem S2000x128 .f32 := win1_1.stage (cfg1.slots t 1)
/-- Window 2's current staging memref at point `t`. -/
abbrev ms1_2 (t : Fin cfg1.N) : Memref sig .tc .vmem S128x128 .bf16 := win1_2.stage (cfg1.slots t 2)
/-- Window 3's current staging memref at point `t`. -/
abbrev ms1_3 (t : Fin cfg1.N) : Memref sig .tc .vmem S128 .f32 := win1_3.stage (cfg1.slots t 3)
/-- Window 4's current staging memref at point `t`. -/
abbrev ms1_4 (t : Fin cfg1.N) : Memref sig .tc .vmem S128x128 .bf16 := win1_4.stage (cfg1.slots t 4)
/-- Window 5's current staging memref at point `t`. -/
abbrev ms1_5 (t : Fin cfg1.N) : Memref sig .tc .vmem S128 .f32 := win1_5.stage (cfg1.slots t 5)
/-- Window 6's current staging memref at point `t`. -/
abbrev ms1_6 (t : Fin cfg1.N) : Memref sig .tc .vmem S128 .f32 := win1_6.stage (cfg1.slots t 6)
/-- Window 7's current staging memref at point `t`. -/
abbrev ms1_7 (t : Fin cfg1.N) : Memref sig .tc .vmem S128x128 .bf16 := win1_7.stage (cfg1.slots t 7)
/-- Window 8's current staging memref at point `t`. -/
abbrev ms1_8 (t : Fin cfg1.N) : Memref sig .tc .vmem S128 .f32 := win1_8.stage (cfg1.slots t 8)
/-- Window 9's current staging memref at point `t`. -/
abbrev ms1_9 (t : Fin cfg1.N) : Memref sig .tc .vmem S1x128 .f32 := win1_9.stage (cfg1.slots t 9)

/-! ## What the input windows hold when the body runs -/

/-- Input window 0's current buffer holds its block at every point, fetched there or not: unfetched, the block index
    has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input window 1's current buffer holds its block at every point, fetched there or not: unfetched, the block index
    has not moved and the body left the block in place. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Input window 2's current buffer holds its block at every point, fetched there or not: unfetched, the block index
    has not moved and the body left the block in place. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Input window 3's current buffer holds its block at every point, fetched there or not: unfetched, the block index
    has not moved and the body left the block in place. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- Input window 4's current buffer holds its block at every point, fetched there or not: unfetched, the block index
    has not moved and the body left the block in place. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- Input window 5's current buffer holds its block at every point, fetched there or not: unfetched, the block index
    has not moved and the body left the block in place. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
/-- Input window 6's current buffer holds its block at every point, fetched there or not: unfetched, the block index
    has not moved and the body left the block in place. -/
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
/-- Input window 7's current buffer holds its block at every point, fetched there or not: unfetched, the block index
    has not moved and the body left the block in place. -/
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
/-- Input window 8's current buffer holds its block at every point, fetched there or not: unfetched, the block index
    has not moved and the body left the block in place. -/
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)

/-! ## What the body leaves in each window -/

/-- Input window 0 is left at its block. -/
theorem leaves1_0 (c : Dev nD) (t : Fin cfg1.N) :
    (dat1 V c).leavesExact 0 t = owns (c : Thread nD τ) (ms1_0 t) fullShare (iblk1 V c 0 t) :=
  (show (dat1 V c).leavesExact 0 t = owns (c : Thread nD τ) (ms1_0 t) fullShare ((dat1 V c).after 0 t) from by
    unfold Dat.leavesExact; rw [liveAt1_0 t]).trans (by rw [after1_0])
/-- Input window 1 is left at its block. -/
theorem leaves1_1 (c : Dev nD) (t : Fin cfg1.N) :
    (dat1 V c).leavesExact 1 t = owns (c : Thread nD τ) (ms1_1 t) fullShare (iblk1 V c 1 t) :=
  (show (dat1 V c).leavesExact 1 t = owns (c : Thread nD τ) (ms1_1 t) fullShare ((dat1 V c).after 1 t) from by
    unfold Dat.leavesExact; rw [liveAt1_1 t]).trans (by rw [after1_1])
/-- Input window 2 is left at its block. -/
theorem leaves1_2 (c : Dev nD) (t : Fin cfg1.N) :
    (dat1 V c).leavesExact 2 t = owns (c : Thread nD τ) (ms1_2 t) fullShare (iblk1 V c 2 t) :=
  (show (dat1 V c).leavesExact 2 t = owns (c : Thread nD τ) (ms1_2 t) fullShare ((dat1 V c).after 2 t) from by
    unfold Dat.leavesExact; rw [liveAt1_2 t]).trans (by rw [after1_2])
/-- Input window 3 is left at its block. -/
theorem leaves1_3 (c : Dev nD) (t : Fin cfg1.N) :
    (dat1 V c).leavesExact 3 t = owns (c : Thread nD τ) (ms1_3 t) fullShare (iblk1 V c 3 t) :=
  (show (dat1 V c).leavesExact 3 t = owns (c : Thread nD τ) (ms1_3 t) fullShare ((dat1 V c).after 3 t) from by
    unfold Dat.leavesExact; rw [liveAt1_3 t]).trans (by rw [after1_3])
/-- Input window 4 is left at its block. -/
theorem leaves1_4 (c : Dev nD) (t : Fin cfg1.N) :
    (dat1 V c).leavesExact 4 t = owns (c : Thread nD τ) (ms1_4 t) fullShare (iblk1 V c 4 t) :=
  (show (dat1 V c).leavesExact 4 t = owns (c : Thread nD τ) (ms1_4 t) fullShare ((dat1 V c).after 4 t) from by
    unfold Dat.leavesExact; rw [liveAt1_4 t]).trans (by rw [after1_4])
/-- Input window 5 is left at its block. -/
theorem leaves1_5 (c : Dev nD) (t : Fin cfg1.N) :
    (dat1 V c).leavesExact 5 t = owns (c : Thread nD τ) (ms1_5 t) fullShare (iblk1 V c 5 t) :=
  (show (dat1 V c).leavesExact 5 t = owns (c : Thread nD τ) (ms1_5 t) fullShare ((dat1 V c).after 5 t) from by
    unfold Dat.leavesExact; rw [liveAt1_5 t]).trans (by rw [after1_5])
/-- Input window 6 is left at its block. -/
theorem leaves1_6 (c : Dev nD) (t : Fin cfg1.N) :
    (dat1 V c).leavesExact 6 t = owns (c : Thread nD τ) (ms1_6 t) fullShare (iblk1 V c 6 t) :=
  (show (dat1 V c).leavesExact 6 t = owns (c : Thread nD τ) (ms1_6 t) fullShare ((dat1 V c).after 6 t) from by
    unfold Dat.leavesExact; rw [liveAt1_6 t]).trans (by rw [after1_6])
/-- Input window 7 is left at its block. -/
theorem leaves1_7 (c : Dev nD) (t : Fin cfg1.N) :
    (dat1 V c).leavesExact 7 t = owns (c : Thread nD τ) (ms1_7 t) fullShare (iblk1 V c 7 t) :=
  (show (dat1 V c).leavesExact 7 t = owns (c : Thread nD τ) (ms1_7 t) fullShare ((dat1 V c).after 7 t) from by
    unfold Dat.leavesExact; rw [liveAt1_7 t]).trans (by rw [after1_7])
/-- Input window 8 is left at its block. -/
theorem leaves1_8 (c : Dev nD) (t : Fin cfg1.N) :
    (dat1 V c).leavesExact 8 t = owns (c : Thread nD τ) (ms1_8 t) fullShare (iblk1 V c 8 t) :=
  (show (dat1 V c).leavesExact 8 t = owns (c : Thread nD τ) (ms1_8 t) fullShare ((dat1 V c).after 8 t) from by
    unfold Dat.leavesExact; rw [liveAt1_8 t]).trans (by rw [after1_8])
/-- At the last point the output window is left at the output block of the running sum after that point. -/
theorem leaves1_9 (c : Dev nD) (t : Fin cfg1.N) (hc1 : cond1_1 (grid1.coords t)) :
    (dat1 V c).leavesExact 9 t = owns (c : Thread nD τ) (ms1_9 t) fullShare (o1 (scAt1 V c t.val t.isLt) (iblk1 V c 7 t) (iblk1 V c 8 t)) :=
  (show (dat1 V c).leavesExact 9 t = owns (c : Thread nD τ) (ms1_9 t) fullShare ((dat1 V c).after 9 t) from by
    unfold Dat.leavesExact; rw [liveAt1_9 t hc1]).trans (by rw [after1_9])

/-! ## The running sum, point by point -/

/-- After the first point the running sum is that point's term over zero. -/
theorem scAt1_first (c : Dev nD) (t : Fin cfg1.N) (h0 : t.val = 0) :
    scAt1 V c t.val t.isLt = sc1 (iblk1 V c 0 t) (iblk1 V c 1 t) (iblk1 V c 2 t) (iblk1 V c 3 t) (iblk1 V c 4 t) (iblk1 V c 5 t) (iblk1 V c 6 t) (k1_pay3 (F := F)) := by
  obtain ⟨n, hn⟩ := t
  cases n with
  | zero => exact scAt1_zero V c hn
  | succ n => exact absurd h0 (Nat.succ_ne_zero n)

/-- After any later point it is that point's term over the running sum after the point before. -/
theorem scAt1_later (c : Dev nD) (t : Fin cfg1.N) (h0 : t.val ≠ 0) :
    scAt1 V c t.val t.isLt = sc1 (iblk1 V c 0 t) (iblk1 V c 1 t) (iblk1 V c 2 t) (iblk1 V c 3 t) (iblk1 V c 4 t) (iblk1 V c 5 t) (iblk1 V c 6 t) (scAt1 V c (t.val - 1) (Nat.lt_of_le_of_lt (Nat.sub_le _ _) t.isLt)) := by
  obtain ⟨n, hn⟩ := t
  cases n with
  | zero => exact absurd rfl h0
  | succ n => exact scAt1_succ V c n hn

/-! ## The body obligation, at a generic point -/

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- What it returns: the invariant at the next position, what the core then owes, and each window's current buffer at
    what the body leaves in it. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 4800000 in
/-- The body at any point. The inputs' buffers hold their blocks; the point is the first, a middle one or the last, and
    the body's triple for that case applies: the invariant hands it the scratch (at anything before the first point, at
    the running sum after the point before otherwise) and takes it back at the running sum after this point; the output
    buffer is handed back as found except at the last point, where it is left at the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6, leaves1_7, leaves1_8]
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 9 t (idleAt1_9 t hc1) (noFlush1_9 t hc1)]
    rw [scAt1_first V c t h0]
    rw [PhiS1_castSucc V c t, PhiS1_zero V c _ _ h0, PhiA1_eq]
    iintro ⟨⟨⟨G0, G1, G2, G3, G4, G5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run1_A c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) ((dat1 V c).before 9 t d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [G0 G1 G2 G3 G4 G5 HS Hg]
    · isplitl [G0 G1 G2 G3 G4 G5 HS]
      · isplitl [G0]; · iexact G0
        isplitl [G1]; · iexact G1
        isplitl [G2]; · iexact G2
        isplitl [G3]; · iexact G3
        isplitl [G4]; · iexact G4
        isplitl [G5]; · iexact G5
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · have hc0 : ¬cond1_0 (grid1.coords t) := fun h => h0 ((hcond1_0 t).mp h)
    rw [scAt1_later V c t h0]
    rw [PhiS1_castSucc V c t, PhiS1_pos V c _ _ h0]
    by_cases h24 : t.val = 24
    · have hc1 : cond1_1 (grid1.coords t) := (hcond1_1 t).mpr h24
      rw [leaves1_9 V c t hc1, scAt1_later V c t h0]
      iintro ⟨⟨⟨G0, G1, G2, G3, G4, G5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run1_C c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (scAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, H9, HS⟩
      isplitl [G0 G1 G2 G3 G4 G5 HS Hg]
      · isplitl [G0 G1 G2 G3 G4 G5 HS]
        · isplitl [G0]; · iexact G0
          isplitl [G1]; · iexact G1
          isplitl [G2]; · iexact G2
          isplitl [G3]; · iexact G3
          isplitl [G4]; · iexact G4
          isplitl [G5]; · iexact G5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc1 : ¬cond1_1 (grid1.coords t) := fun h => h24 ((hcond1_1 t).mp h)
      rw [Dat.leavesExact_idle (dat1 V c) 9 t (idleAt1_9 t hc1) (noFlush1_9 t hc1)]
      iintro ⟨⟨⟨G0, G1, G2, G3, G4, G5, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run1_B c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) ((dat1 V c).before 9 t d9) (scAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [G0 G1 G2 G3 G4 G5 HS Hg]
      · isplitl [G0 G1 G2 G3 G4 G5 HS]
        · isplitl [G0]; · iexact G0
          isplitl [G1]; · iexact G1
          isplitl [G2]; · iexact G2
          isplitl [G3]; · iexact G3
          isplitl [G4]; · iexact G4
          isplitl [G5]; · iexact G5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The launch of the whole program: @main as four segments (two host operations, the projection region, thirty-five host
  operations, the combine region), the buffer contents at each segment boundary as a fold from the launch memory, every
  argument array walked back through the fold to its launch contents, and the run: every weakly fair execution
  terminates with every unscoped buffer at the last boundary's contents. The two regions' body obligations are taken as
  hypotheses here and supplied where the claims are assembled.
-/
import proofs.«141488_j51153060495543_1_alg».proof.Proof.KI.Defs0
import proofs.«141488_j51153060495543_1_alg».proof.Proof.KI.Defs1
import proofs.«141488_j51153060495543_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the combine region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the combine region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one, a region reads it through an input window or not at all -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 3).trans (((dat1 (V3 m ρ) c).arrAt_in 3 rfl _).trans (A_eq1 (V3 m ρ) c 3))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 5).trans (((dat1 (V3 m ρ) c).arrAt_in 5 rfl _).trans (A_eq1 (V3 m ρ) c 5))
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 6).trans (((dat1 (V3 m ρ) c).arrAt_in 6 rfl _).trans (A_eq1 (V3 m ρ) c 6))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 8).trans (((dat1 (V3 m ρ) c).arrAt_in 8 rfl _).trans (A_eq1 (V3 m ρ) c 8))
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-- The result array after the run is what the combine region's write-backs leave in it. -/
theorem W4_main_v32 (c : Dev nD) : W4 m ρ c (Proc.devRef .tc main_v32) = (dat1 (V3 m ρ) c).arrAt 9 cfg1.N :=
  W4_arr m ρ c 9

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

section Segments

variable (hb0 : ∀ (V : (c : Dev nD) → (b : Ref sig .tc) → Buf (Elt F) ((c : Thread nD τ).loc b)) (c : Dev nD),
    BodyObligation (dat0 (F := F) V c) (defs₀ (F := F)) Variants.none () Set.univ)
variable (hb1 : ∀ (V : (c : Dev nD) → (b : Ref sig .tc) → Buf (Elt F) ((c : Thread nD τ).loc b)) (c : Dev nD),
    BodyObligation (dat1 (F := F) V c) (defs₀ (F := F)) Variants.none () Set.univ)

set_option backward.isDefEq.respectTransparency.types false in
/-- Region 0 over the thread state: entered with every unscoped buffer at the contents before it, left with them at the
    contents after it; its arrays are split out of the unscoped buffers and put back at what the write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it; its arrays are split out of the unscoped buffers and put back at what the write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hΦ : (pdats m ρ 1 c).Φ (Fin.last _) ⊢ (Pipeline.ΦA spec1 c : sProp 𝕄) := hout1 (V3 m ρ) c
    have hA : (Pipeline.ΦA spec1 c : sProp 𝕄) ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact hΦ.trans hA
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1) ]

theorem main_run (c : Dev nD) : main (F := F) c = Pipeline.Seg.run (segs m ρ hb0 hb1) := (main_chain c).trans (by chain_rfl)

include hb0 hb1 in
set_option backward.isDefEq.respectTransparency.types false in
/-- THE RUN: from any memory with zero counters every weakly fair execution of @main terminates, nothing faulting, and in
    every final state each unscoped buffer of every core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

include hb0 hb1 in
/-- THE FRAME, with the result named: the run's post read at the argument arrays and at the result array. -/
theorem run_named : θ_run defs (onTc (τ := τ) (main (F := F))) ⟨m, fun _ => 0, ρ⟩ (fun r => ∀ c : Dev nD,
      r.2.mem ((c.tc : Thread nD τ).loc main_v32) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v32 (by decide))).trans (W4_main_v32 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩)
    (run m ρ hb0 hb1)

end Segments

end Cert.KernelIdeal.Hand

end
-- ==== Proof.KI.HostVal.lean ====
/-
  What the host operations of the kernel's @main leave in the arrays the two regions read, over the extended reals.
  Before the projection region: the transposed projection weight (a change of float format is the identity here), the
  argument arrays untouched. Before the combine region: the three transposed weights; the hidden array as the projection
  region left it; and the mean-neighbour array, which is ONE function `glueK` of the hidden array and the edge list — the
  gather of source rows, the two segment sums over target nodes and the division by the clamped degree — kept closed.
-/
import proofs.«141488_j51153060495543_1_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (ρ : Dev nD → PrngReg)

/-- The mean-neighbour array from the hidden array `h` and the edge list `e`: source and target rows of `e`, a negative
    source index wrapped by the node count, the gather of source rows of `h`, their sum per target node, the count of
    edges per target node clamped below by one, and the quotient. -/
def glueK (h : (⟨S50000x128, .f32⟩ : BufTy).Contents (Elt Ideal)) (e : (⟨S2x1600000, .i32⟩ : BufTy).Contents (Elt Ideal)) :
    (⟨S50000x128, .f32⟩ : BufTy).Contents (Elt Ideal) :=
  Host.divf
    (Host.scatterAdd scatter_S50000x128_S1600000x1_S1600000x128_1_0_0_1
      (broadcastInDim S50000x128 ![] bcast_S_S50000x128 (constant (F := Ideal) S_ .f32 0x00000000#32))
      (broadcastInDim S1600000x1 ![0] bcast_S1600000_S1600000x1_0
        (shapeCast _ (extractStridedSlice S1x1600000 ![1, 0] e slices_S2x1600000_S1x1600000_1_0) shapeCasts_S1x1600000_S1600000))
      (Host.gather gather_S50000x128_S1600000x1_S1600000x128_1_0_n_n_0_1_1128 h
        (broadcastInDim S1600000x1 ![0] bcast_S1600000_S1600000x1_0
          (select
            (cmpi .slt (shapeCast _ (extractStridedSlice S1x1600000 ![0, 0] e slices_S2x1600000_S1x1600000_0_0) shapeCasts_S1x1600000_S1600000)
              (broadcastInDim S1600000 ![] bcast_S_S1600000 (constantI S_ 32 0#32)))
            (addi (shapeCast _ (extractStridedSlice S1x1600000 ![0, 0] e slices_S2x1600000_S1x1600000_0_0) shapeCasts_S1x1600000_S1600000)
              (broadcastInDim S1600000 ![] bcast_S_S1600000 (constantI S_ 32 50000#32)))
            (shapeCast _ (extractStridedSlice S1x1600000 ![0, 0] e slices_S2x1600000_S1x1600000_0_0) shapeCasts_S1x1600000_S1600000)))))
    (broadcastInDim S50000x128 ![0, 1] bcast_S50000x1_S50000x128_0_1
      (broadcastInDim S50000x1 ![0] bcast_S50000_S50000x1_0
        (maximumf
          (Host.scatterAdd scatter_S50000_S1600000x1_S1600000_n_0_0_1
            (broadcastInDim S50000 ![] bcast_S_S50000 (constant (F := Ideal) S_ .f32 0x00000000#32))
            (broadcastInDim S1600000x1 ![0] bcast_S1600000_S1600000x1_0
              (shapeCast _ (extractStridedSlice S1x1600000 ![1, 0] e slices_S2x1600000_S1x1600000_1_0) shapeCasts_S1x1600000_S1600000))
            (broadcastInDim S1600000 ![] bcast_S_S1600000 (constant (F := Ideal) S_ .f32 0x3F800000#32)))
          (broadcastInDim S50000 ![] bcast_S_S50000 (constant (F := Ideal) S_ .f32 0x3F800000#32)))))

/-- The projection weight as both regions' programs hold it: transposed (the format change is the identity here). -/
abbrev trW {F : FTy → Type} [FloatOps F] (x : (⟨S128x1024, .f32⟩ : BufTy).Contents (Elt F)) : (⟨S1024x128, .bf16⟩ : BufTy).Contents (Elt F) :=
  ((truncf .bf16 · bitsLt_bf16_f32) : (⟨S1024x128, .f32⟩ : BufTy).Contents (Elt F) → (⟨S1024x128, .bf16⟩ : BufTy).Contents (Elt F))
    (((transpose S1024x128 [1, 0] · transposes_S128x1024_S1024x128_1_0) : (⟨S128x1024, .f32⟩ : BufTy).Contents (Elt F) → (⟨S1024x128, .f32⟩ : BufTy).Contents (Elt F)) x)

/-- A square weight likewise. -/
abbrev tr128 {F : FTy → Type} [FloatOps F] (x : (⟨S128x128, .f32⟩ : BufTy).Contents (Elt F)) : (⟨S128x128, .bf16⟩ : BufTy).Contents (Elt F) :=
  ((truncf .bf16 · bitsLt_bf16_f32) : (⟨S128x128, .f32⟩ : BufTy).Contents (Elt F) → (⟨S128x128, .bf16⟩ : BufTy).Contents (Elt F))
    (((transpose S128x128 [1, 0] · transposes_S128x128_S128x128_1_0) : (⟨S128x128, .f32⟩ : BufTy).Contents (Elt F) → (⟨S128x128, .f32⟩ : BufTy).Contents (Elt F)) x)

/-! ## Before the projection region -/

theorem W1_of (c : Dev nD) (r : Ref sig .tc) (h : r ∉ hostOps0_W) : W1 m ρ c (Proc.devRef .tc r) = m ((c : Thread nD τ).loc r) :=
  (StableHlo.after_of_writes_sub hostOps0 _ hostOps0_writes h).trans rfl

theorem V1_arg0 (c : Dev nD) : V1 m ρ c main_arg0 = m ((c : Thread nD τ).loc main_arg0) := W1_of m ρ c main_arg0 (by decide)
theorem V1_arg3 (c : Dev nD) : V1 m ρ c main_arg3 = m ((c : Thread nD τ).loc main_arg3) := W1_of m ρ c main_arg3 (by decide)

/-- The projection weight as the region finds it: the transpose of the argument (the format change is the identity). -/
theorem V1_v1 (c : Dev nD) :
    (V1 m ρ c main_v1 : (⟨S1024x128, .bf16⟩ : BufTy).Contents (Elt Ideal))
      = trW (F := Ideal) (m ((c : Thread nD τ).loc main_arg2)) := by
  show StableHlo.after hostOps0 (W0 m ρ c) (Proc.devRef .tc main_v1) = _
  after_results

/-! ## Before the combine region -/

theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

theorem W2_arg (c : Dev nD) (r : Ref sig .tc) (h2 : ∀ w, Pipeline.arrRef spec0 w ≠ r) (h0 : r ∉ hostOps0_W) :
    W2 m ρ c (Proc.devRef .tc r) = m ((c : Thread nD τ).loc r) :=
  (W2_of_ne m ρ c r h2).trans (W1_of m ρ c r h0)

/-- The hidden array as the combine region finds it: what the projection region's write-backs left. -/
theorem V3_v2 (c : Dev nD) : V3 m ρ c main_v2 = (dat0 (V1 m ρ) c).arrAt 3 cfg0.N :=
  (W3_of m ρ c main_v2 (by decide)).trans (W2_arr m ρ c 3)

theorem V3_arg5 (c : Dev nD) : V3 m ρ c main_arg5 = m ((c : Thread nD τ).loc main_arg5) :=
  (W3_of m ρ c main_arg5 (by decide)).trans (W2_arg m ρ c main_arg5 (by decide) (by decide))
theorem V3_arg7 (c : Dev nD) : V3 m ρ c main_arg7 = m ((c : Thread nD τ).loc main_arg7) :=
  (W3_of m ρ c main_arg7 (by decide)).trans (W2_arg m ρ c main_arg7 (by decide) (by decide))
theorem V3_arg8 (c : Dev nD) : V3 m ρ c main_arg8 = m ((c : Thread nD τ).loc main_arg8) :=
  (W3_of m ρ c main_arg8 (by decide)).trans (W2_arg m ρ c main_arg8 (by decide) (by decide))
theorem V3_arg10 (c : Dev nD) : V3 m ρ c main_arg10 = m ((c : Thread nD τ).loc main_arg10) :=
  (W3_of m ρ c main_arg10 (by decide)).trans (W2_arg m ρ c main_arg10 (by decide) (by decide))

/-- The left weight as the combine region finds it: the transpose of the argument. -/
theorem V3_v27 (c : Dev nD) :
    (V3 m ρ c main_v27 : (⟨S128x128, .bf16⟩ : BufTy).Contents (Elt Ideal))
      = tr128 (F := Ideal) (m ((c : Thread nD τ).loc main_arg4)) := by
  rw [← W2_arg m ρ c main_arg4 (by decide) (by decide)]
  show StableHlo.after hostOps1 (W2 m ρ c) (Proc.devRef .tc main_v27) = _
  after_results_simp

/-- The right weight likewise. -/
theorem V3_v29 (c : Dev nD) :
    (V3 m ρ c main_v29 : (⟨S128x128, .bf16⟩ : BufTy).Contents (Elt Ideal))
      = tr128 (F := Ideal) (m ((c : Thread nD τ).loc main_arg6)) := by
  rw [← W2_arg m ρ c main_arg6 (by decide) (by decide)]
  show StableHlo.after hostOps1 (W2 m ρ c) (Proc.devRef .tc main_v29) = _
  after_results_simp

/-- The output weight likewise. -/
theorem V3_v31 (c : Dev nD) :
    (V3 m ρ c main_v31 : (⟨S128x128, .bf16⟩ : BufTy).Contents (Elt Ideal))
      = tr128 (F := Ideal) (m ((c : Thread nD τ).loc main_arg9)) := by
  rw [← W2_arg m ρ c main_arg9 (by decide) (by decide)]
  show StableHlo.after hostOps1 (W2 m ρ c) (Proc.devRef .tc main_v31) = _
  after_results_simp

/-- The mean-neighbour array as the combine region finds it: `glueK` of the hidden array the projection region left and of
    the edge list. -/
theorem V3_v25 (c : Dev nD) :
    (V3 m ρ c main_v25 : (⟨S50000x128, .f32⟩ : BufTy).Contents (Elt Ideal))
      = glueK ((dat0 (V1 m ρ) c).arrAt 3 cfg0.N) (m ((c : Thread nD τ).loc main_arg1)) := by
  rw [← W2_arg m ρ c main_arg1 (by decide) (by decide), ← W2_arr m ρ c 3]
  show StableHlo.after hostOps1 (W2 m ρ c) (Proc.devRef .tc main_v25) = _
  unfold glueK
  after_results_simp
  rfl

end Cert.KernelIdeal.Hand

end
-- ==== Proof.Spec.lean ====
/-
  The mathematics both programs compute, stated once over the extended reals, with every array read by coordinates.

  * `H`: a node's hidden feature, relu (x · Wᵀ + b): the maximum with zero of a 1024-term sum of products plus the bias.
  * `lin`: one row of the combine layer, (mean-neighbour row · Wlᵀ + bl) + hidden row · Wrᵀ.
  * `lnrelu`: layer normalisation of a 128-entry row (mean, variance as the mean of squared deviations, the reciprocal
    square root of variance plus epsilon, gain and bias) followed by relu.
  * `Y`: row `r` of the normalised, rectified combine layer, from row `r` of the mean-neighbour array and of the hidden array.
  * `pooled`: the column sums of `Y` over all 50000 rows; `out`: the pooled mean (the sum times 1/50000) times Woᵀ plus bo.

  The weight matrices enter already transposed (contracted along their FIRST axis), as both programs hold them.
  Float literals stay as the words both programs print; only the zero word and the divisor 50000 are ever evaluated.
-/
import Idealize.ShloMosaic.PureOps.Ideal
import Idealize.ShloMosaic.Lib.ValueIdx

noncomputable section

open scoped BigOperators

namespace Cert.Spec

open Idealize.ShloMosaic Idealize.ShloMosaic.ValueIdx

/-- A two-axis array of extended reals. -/
abbrev Arr2 (a b : Nat) : Type := FVec Ideal (⟨2, ![a, b]⟩ : Shape) .f32
/-- A one-axis array of extended reals. -/
abbrev Arr1 (a : Nat) : Type := FVec Ideal (⟨1, ![a]⟩ : Shape) .f32

/-- The zero word both programs rectify against (the extended real 0). -/
abbrev zero : EReal := Ideal.ofBits .f32 0x00000000#32
/-- The word 128.0, the divisor of both means of the layer normalisation. -/
abbrev c128 : EReal := Ideal.ofBits .f32 0x43000000#32
/-- The epsilon word of the layer normalisation (the float nearest 1e-5), the same word in both programs. -/
abbrev eps : EReal := Ideal.ofBits .f32 0x3727C5AC#32

/-- Hidden feature `j` of node `r`: relu of the projection of row `r` of `x` plus the bias. -/
def H (x : Arr2 50000 1024) (wT : Arr2 1024 128) (b : Arr1 128) (r : Fin 50000) (j : Fin 128) : EReal :=
  max ((∑ k : Fin 1024, x (ix2 r k) * wT (ix2 k j)) + b (ix1 j)) zero

/-- The hidden features as an array. -/
def Harr (x : Arr2 50000 1024) (wT : Arr2 1024 128) (b : Arr1 128) : Arr2 50000 128 :=
  fun i => H x wT b (i 0) (i 1)

/-- Entry `j` of the combine layer on one node: (mean-neighbour row · Wlᵀ + bl) + hidden row · Wrᵀ. -/
def lin (mn h : Fin 128 → EReal) (wlT : Arr2 128 128) (bl : Arr1 128) (wrT : Arr2 128 128) (j : Fin 128) : EReal :=
  ((∑ k : Fin 128, mn k * wlT (ix2 k j)) + bl (ix1 j)) + ∑ k : Fin 128, h k * wrT (ix2 k j)

/-- The mean of a 128-entry row: its sum divided by the word 128.0. -/
def mean128 (v : Fin 128 → EReal) : EReal := Ideal.div (∑ j : Fin 128, v j) c128

/-- Layer normalisation of a row, then relu, at entry `j`. -/
def lnrelu (v : Fin 128 → EReal) (g bt : Arr1 128) (j : Fin 128) : EReal :=
  max ((((v j - mean128 v)
        * Ideal.rsqrt (mean128 (fun i => (v i - mean128 v) * (v i - mean128 v)) + eps))
      * g (ix1 j)) + bt (ix1 j)) zero

/-- Row `r`, entry `j` of the normalised, rectified combine layer. -/
def Y (mn h : Arr2 50000 128) (wlT : Arr2 128 128) (bl : Arr1 128) (wrT : Arr2 128 128) (g bt : Arr1 128)
    (r : Fin 50000) (j : Fin 128) : EReal :=
  lnrelu (lin (fun k => mn (ix2 r k)) (fun k => h (ix2 r k)) wlT bl wrT) g bt j

/-- Column `k` of `y` summed over all 50000 rows. -/
def pooled (y : Fin 50000 → Fin 128 → EReal) (k : Fin 128) : EReal := ∑ r : Fin 50000, y r k

/-- The result: the pooled mean (the column sums times 1/50000) times Woᵀ, plus bo. -/
def out (s : Fin 128 → EReal) (woT : Arr2 128 128) (bo : Arr1 128) (j : Fin 128) : EReal :=
  (∑ k : Fin 128, (s k * ((1 / 50000 : ℝ) : EReal)) * woT (ix2 k j)) + bo (ix1 j)

/-- The whole result from the hidden array `h` and the mean-neighbour array `mn`. -/
def result (mn h : Arr2 50000 128) (wlT : Arr2 128 128) (bl : Arr1 128) (wrT : Arr2 128 128) (g bt : Arr1 128)
    (woT : Arr2 128 128) (bo : Arr1 128) (j : Fin 128) : EReal :=
  out (pooled (Y mn h wlT bl wrT g bt)) woT bo j

end Cert.Spec

end
-- ==== Proof.KI.Val0.lean ====
/-
  Region 0 read as mathematics, over the extended reals.

  First the stored value of one grid point at an index: entry (p, j) of the output block is the maximum with zero of
  the 1024-term sum of products of row p of the x tile with column j of the transposed weight, plus entry j of the bias.
  The narrowing of the tile to the weight's format is the identity on extended reals, the weight's cast to its own shape
  is the identity, the product accumulates into a zero splat, the bias is laid along every row.

  Then the array: the block of the x array at point t is rows 2000·t … 2000·t + 1999, the weight's and the bias's blocks
  are the whole arrays, so what point t writes back is block t of ONE function of the three arrays (the specification's
  hidden features); the 25 blocks cover the 50000 rows (row r lies in block r / 2000), so after the 25 write-backs the
  output array holds that function everywhere.
-/
import proofs.«141488_j51153060495543_1_alg».proof.Proof.KI.Defs0
import proofs.«141488_j51153060495543_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The stored value of a point at an index -/

/-- The product's left operand index at output index `i` and contraction index `q`: its row is the output's row … -/
theorem lhs_mm0_0 (i : S2000x128.Idx) (q : dot_S2000x1024_S1024x128_S2000x128_1_0_0_1_n_n.contr.Idx) :
    (dot_S2000x1024_S1024x128_S2000x128_1_0_0_1_n_n.lhsIdx i q 0).val = (i 0).val := by
  unfold DotDims.lhsIdx
  rw [dif_neg (show ¬(0 : Fin S2000x1024.rank) ∈ dot_S2000x1024_S1024x128_S2000x128_1_0_0_1_n_n.lhsBatch by decide), dif_pos (show (0 : Fin S2000x1024.rank) ∈ dot_S2000x1024_S1024x128_S2000x128_1_0_0_1_n_n.lhsNonContracting by decide)]
  rfl
/-- … and its column the contracted coordinate. -/
theorem lhs_mm0_1 (i : S2000x128.Idx) (q : dot_S2000x1024_S1024x128_S2000x128_1_0_0_1_n_n.contr.Idx) :
    (dot_S2000x1024_S1024x128_S2000x128_1_0_0_1_n_n.lhsIdx i q 1).val = (q ⟨0, by decide⟩).val :=
  dot_S2000x1024_S1024x128_S2000x128_1_0_0_1_n_n.lhsIdx_val_of_single rfl i q
/-- The right operand's row is the contracted coordinate … -/
theorem rhs_mm0_0 (i : S2000x128.Idx) (q : dot_S2000x1024_S1024x128_S2000x128_1_0_0_1_n_n.contr.Idx) :
    (dot_S2000x1024_S1024x128_S2000x128_1_0_0_1_n_n.rhsIdx i q 0).val = (q ⟨0, by decide⟩).val :=
  dot_S2000x1024_S1024x128_S2000x128_1_0_0_1_n_n.rhsIdx_val_of_single rfl i q
/-- … and its column the output's column. -/
theorem rhs_mm0_1 (i : S2000x128.Idx) (q : dot_S2000x1024_S1024x128_S2000x128_1_0_0_1_n_n.contr.Idx) :
    (dot_S2000x1024_S1024x128_S2000x128_1_0_0_1_n_n.rhsIdx i q 1).val = (i 1).val := by
  unfold DotDims.rhsIdx
  rw [dif_neg (show ¬(1 : Fin S1024x128.rank) ∈ dot_S2000x1024_S1024x128_S2000x128_1_0_0_1_n_n.rhsBatch by decide), dif_pos (show (1 : Fin S1024x128.rank) ∈ dot_S2000x1024_S1024x128_S2000x128_1_0_0_1_n_n.rhsNonContracting by decide)]
  rfl

/-- The tile-by-weight product into a zero splat, at (p, j): the sum over k of a (p, k) · b (k, j). -/
theorem mm0_apply (a : FVec Ideal S2000x1024 .bf16) (b : FVec Ideal S1024x128 .bf16) (p : Fin 2000) (j : Fin 128) :
    matmul dot_S2000x1024_S1024x128_S2000x128_1_0_0_1_n_n none a b (constant (F := Ideal) S2000x128 .f32 0x00000000#32) (ix2 p j)
      = ∑ k : Fin 1024, a (ix2 p k) * b (ix2 k j) := by
  show FloatOps.matmul dot_S2000x1024_S1024x128_S2000x128_1_0_0_1_n_n none a b (constant (F := Ideal) S2000x128 .f32 0x00000000#32) (ix2 p j) = _
  rw [Ideal.matmul_constant_zero_apply, ← Equiv.sum_comp (ValueIdx.contrEquiv1 dot_S2000x1024_S1024x128_S2000x128_1_0_0_1_n_n 1024 rfl rfl).symm]
  refine Finset.sum_congr rfl fun k _ => ?_
  have hk := ValueIdx.contrEquiv1_symm_val dot_S2000x1024_S1024x128_S2000x128_1_0_0_1_n_n 1024 rfl rfl k
  have el : dot_S2000x1024_S1024x128_S2000x128_1_0_0_1_n_n.lhsIdx (ix2 p j) ((ValueIdx.contrEquiv1 dot_S2000x1024_S1024x128_S2000x128_1_0_0_1_n_n 1024 rfl rfl).symm k) = ix2 p k := funext fun a => Fin.ext (by
    match a with
    | ⟨0, _⟩ => exact lhs_mm0_0 _ _
    | ⟨1, _⟩ => exact (lhs_mm0_1 _ _).trans hk)
  have er : dot_S2000x1024_S1024x128_S2000x128_1_0_0_1_n_n.rhsIdx (ix2 p j) ((ValueIdx.contrEquiv1 dot_S2000x1024_S1024x128_S2000x128_1_0_0_1_n_n 1024 rfl rfl).symm k) = ix2 k j := funext fun a => Fin.ext (by
    match a with
    | ⟨0, _⟩ => exact (rhs_mm0_0 _ _).trans hk
    | ⟨1, _⟩ => exact rhs_mm0_1 _ _)
  rw [el, er]

/-- ENTRY (p, j) OF A POINT'S OUTPUT BLOCK: relu of row p of the tile times column j of the weight plus the bias. -/
theorem o0_apply (x0 : Vec Ideal S2000x1024 .f32) (x1 : Vec Ideal S1024x128 .bf16) (x2 : Vec Ideal S128 .f32) (p : Fin 2000) (j : Fin 128) :
    o0 (F := Ideal) x0 x1 x2 (ix2 p j) = max ((∑ k : Fin 1024, x0 (ix2 p k) * x1 (ix2 k j)) + x2 (ix1 j)) Cert.Spec.zero := by
  unfold o0 k0_pay1
  rw [maximumf_apply, addf_apply, broadcast_apply, shapeCast_self, mm0_apply,
    broadcastTo_1b_ab_apply, shapeCast_a_1a_apply]
  rfl

/-! ## From blocks to the array -/

variable (V : (c : Dev nD) → (b : Ref sig .tc) → Buf (Elt Ideal) ((c : Thread nD τ).loc b))

/-- The printed block-index maps, decided over the 25 points: the x tile and the output tile sit at block row `t`, block
    column 0; the weight's and the bias's one block sits at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- A point's output entry from the arrays: when row `p` of the tile is row `r` of the x array and the other two blocks
    are the weight and the bias, entry (p, j) of the stored value is hidden feature `j` of node `r`. -/
theorem o0_of_rows (A0 : Cert.Spec.Arr2 50000 1024) (A1 : Cert.Spec.Arr2 1024 128) (A2 : Cert.Spec.Arr1 128)
    (x0 : Vec Ideal S2000x1024 .f32) (x1 : Vec Ideal S1024x128 .bf16) (x2 : Vec Ideal S128 .f32)
    (r : Fin 50000) (p : Fin 2000) (j : Fin 128)
    (h0 : ∀ k : Fin 1024, x0 (ix2 p k) = A0 (ix2 r k)) (h1 : ∀ k : Fin 1024, x1 (ix2 k j) = A1 (ix2 k j))
    (h2 : x2 (ix1 j) = A2 (ix1 j)) :
    o0 (F := Ideal) x0 x1 x2 (ix2 p j) = Cert.Spec.H A0 A1 A2 r j := by
  rw [o0_apply, h2]
  unfold Cert.Spec.H
  exact congrArg (fun s => max (s + A2 (ix1 j)) Cert.Spec.zero) (Finset.sum_congr rfl fun k _ => by rw [h0 k, h1 k])

/-- The x tile at point `t` is rows 2000·t … 2000·t + 1999 of the x array. -/
theorem iblk0_0_apply (c : Dev nD) (t : Fin cfg0.N) (p : Fin 2000) (k : Fin 1024) (r : Fin 50000)
    (hr : r.val = 2000 * t.val + p.val) :
    (iblk0 V c 0 t : Vec Ideal S2000x1024 .f32) (ix2 p k) = (V c main_arg0 : S50000x1024.Idx → EReal) (ix2 r k) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 2000 + 1 * p.val = r.val; rw [e0, hr]; omega
  | ⟨1, _⟩ => show win0_0.index t (1 : Fin 2) * 1024 + 1 * k.val = k.val; rw [e1]; omega

/-- The weight's block at any point is the whole transposed weight. -/
theorem iblk0_1_apply (c : Dev nD) (t : Fin cfg0.N) (k : Fin 1024) (j : Fin 128) :
    (iblk0 V c 1 t : Vec Ideal S1024x128 .bf16) (ix2 k j) = (V c main_v1 : S1024x128.Idx → EReal) (ix2 k j) := by
  obtain ⟨-, -, e2, e3, -⟩ := idx_facts0 t
  unfold iblk0
  rw [View.read_apply]
  show V c main_v1 _ = V c main_v1 _
  congr 1
  funext a; apply Fin.ext
  match a with
  | ⟨0, _⟩ => show win0_1.index t (0 : Fin 2) * 1024 + 1 * k.val = k.val; rw [e2]; omega
  | ⟨1, _⟩ => show win0_1.index t (1 : Fin 2) * 128 + 1 * j.val = j.val; rw [e3]; omega

/-- The bias's block at any point is the whole bias. -/
theorem iblk0_2_apply (c : Dev nD) (t : Fin cfg0.N) (j : Fin 128) :
    (iblk0 V c 2 t : Vec Ideal S128 .f32) (ix1 j) = (V c main_arg3 : S128.Idx → EReal) (ix1 j) := by
  obtain ⟨-, -, -, -, e4, -⟩ := idx_facts0 t
  unfold iblk0
  rw [View.read_apply]
  show V c main_arg3 _ = V c main_arg3 _
  congr 1
  funext a; apply Fin.ext
  match a with
  | ⟨0, _⟩ => show win0_2.index t (0 : Fin 1) * 128 + 1 * j.val = j.val; rw [e4]; omega

/-- What the output array ends holding: the specification's hidden features of the three arrays as the region finds them. -/
abbrev G0 (c : Dev nD) : S50000x128.Idx → EReal :=
  Cert.Spec.Harr (V c main_arg0 : S50000x1024.Idx → EReal) (V c main_v1 : S1024x128.Idx → EReal) (V c main_arg3 : S128.Idx → EReal)

/-- A stored block whose row `p` is row 2000·t + p of a function `G` of the array's index is block `t` of `G`. -/
theorem blk0_3_read (t : Fin cfg0.N) (X : Vec Ideal S2000x128 .f32) (G : S50000x128.Idx → EReal)
    (h : ∀ (p : Fin 2000) (j : Fin 128) (r : Fin 50000), r.val = 2000 * t.val + p.val → X (ix2 p j) = G (ix2 r j)) :
    (cfg0.win 3).cut (grid0.coords t) X = ((cfg0.win 3).blk t).view.read (Elt Ideal) G := by
  have hN : cfg0.N = 25 := N_0
  have ht : t.val < 25 := hN ▸ t.isLt
  obtain ⟨-, -, -, -, -, e5, e6⟩ := idx_facts0 t
  funext y
  obtain ⟨p, j, rfl⟩ : ∃ (p : Fin 2000) (j : Fin 128), y = ix2 p j := ⟨y 0, y 1, eq_ix2 y⟩
  rw [View.read_apply]
  show X (ix2 p j) = G (((cfg0.win 3).blk t).view.emb (ix2 p j))
  refine (h p j ⟨2000 * t.val + p.val, by have := p.isLt; omega⟩ rfl).trans (congrArg G ?_)
  funext a; apply Fin.ext
  match a with
  | ⟨0, _⟩ => show 2000 * t.val + p.val = win0_3.index t (0 : Fin 2) * 2000 + 1 * p.val; rw [e5]; omega
  | ⟨1, _⟩ => show j.val = win0_3.index t (1 : Fin 2) * 128 + 1 * j.val; rw [e6]; omega

/-- WHAT POINT `t` WRITES BACK is block `t` of the hidden features of the arrays as the region finds them. -/
theorem flushed0_3_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  refine blk0_3_read t _ (G0 V c) fun p j r hr => ?_
  exact o0_of_rows _ _ _ _ _ _ r p j (fun k => iblk0_0_apply V c t p k r hr) (fun k => iblk0_1_apply V c t k j)
    (iblk0_2_apply V c t j)

/-- An index of the output array is in point `t`'s block iff each coordinate is in the block's range on its axis. -/
theorem mem_blk0_3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v2).slice (win0_3.rect t)).set ↔ _
  rw [View.set_slice_whole, Rect.mem_set_unit]
  exact Iff.rfl

/-- THE COVER: row `r` of the output array lies in the block of point r / 2000, and every point writes its block back. -/
theorem cover0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, e5, e6⟩ := idx_facts0 t
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; rw [e5, ht]; omega
  | ⟨1, _⟩ => show win0_3.index t (1 : Fin 2) * 128 ≤ (i 1).val ∧ (i 1).val < win0_3.index t (1 : Fin 2) * 128 + 128; rw [e6]; omega

/-- THE OUTPUT ARRAY after the 25 write-backs: the hidden features everywhere. -/
theorem arr0_3_eq (c : Dev nD) : (dat0 V c).arrAt 3 cfg0.N = G0 V c :=
  (dat0 V c).arrAt_eq_of_cover 3 (G0 V c) (fun t _ => flushed0_3_eq V c t) cover0_3

/-- After region 0's 25 write-backs, entry (r, j) of the output array is relu (∑ₖ x[r,k] · wT[k,j] + b[j]). -/
theorem arr0_3_apply (V : (c : Dev nD) → (b : Ref sig .tc) → Buf (Elt Ideal) ((c : Thread nD τ).loc b)) (c : Dev nD) (r : Fin 50000) (j : Fin 128) :
    (dat0 (F := Ideal) V c).arrAt 3 cfg0.N (ix2 r j) = Cert.Spec.H (V c main_arg0) (V c main_v1) (V c main_arg3) r j :=
  congrFun (arr0_3_eq V c) (ix2 r j)

end Cert.KernelIdeal.Hand

end
-- ==== Proof.KI.Val1Pay.lean ====
/-
  The combine kernel's stored values read at an index, over the extended reals. The scratch update adds to each of the
  128 running sums the column sum, over the tile's 2000 rows, of the rectified layer-normalised combine of that row; the
  output value is the scaled running sums times the output weight plus the output bias; the reset value is zero.
-/
import proofs.«141488_j51153060495543_1_alg».proof.Proof.KI.Defs1
import proofs.«141488_j51153060495543_1_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## Layout: a column of row values, a row of column values -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A 128-entry vector laid as one row and repeated over the tile's 2000 rows reads, at `(p, k)`, its entry `k`. -/
theorem rowB_apply (b : FVec Ideal S128 .f32) (h1 : S128.ShapeCasts S1x128) (h2 : S1x128.Broadcasts S2000x128) (p : Fin 2000) (k : Fin 128) :
    broadcastTo S2000x128 (shapeCast S1x128 b h1) h2 (ix2 p k) = b (ix1 k) :=
  (broadcastTo_1b_ab_apply _ _ p k).trans (shapeCast_a_1a_apply _ _ (0 : Fin 1) k)

/-! ## The two lane sums -/

/-- The sum along a row of the tile: at row `p`, the sum over the 128 entries of that row. -/
theorem rowSum_apply (v : FVec Ideal S2000x128 .f32) (h : S2000x128.Reduces [1] S2000) (hφ : FKind.Formats .f32)
    (hacc : (0x00000000#32 : BitVec 32) = FKind.add.neutral .f32 hφ) (p : Fin 2000) :
    multiReduction (F := Ideal) .add [1] S2000 v 0x00000000#32 h hφ hacc (ix1 p) = ∑ k : Fin 128, v (ix2 p k) :=
  (Ideal.multiReduction_add_single v 0x00000000#32 h hφ hacc (ix1 p)).trans
    (Finset.sum_congr rfl fun k _ => congrArg v (funext fun a => match a with | ⟨0, _⟩ => rfl | ⟨1, _⟩ => rfl))

/-- The sum down a column of the tile: at column `k`, the sum over the 2000 rows of that column. -/
theorem colSum_apply (v : FVec Ideal S2000x128 .f32) (h : S2000x128.Reduces [0] S128) (hφ : FKind.Formats .f32)
    (hacc : (0x00000000#32 : BitVec 32) = FKind.add.neutral .f32 hφ) (k : Fin 128) :
    multiReduction (F := Ideal) .add [0] S128 v 0x00000000#32 h hφ hacc (ix1 k) = ∑ p : Fin 2000, v (ix2 p k) :=
  (Ideal.multiReduction_add_single v 0x00000000#32 h hφ hacc (ix1 k)).trans
    (Finset.sum_congr rfl fun p _ => congrArg v (funext fun a => match a with | ⟨0, _⟩ => rfl | ⟨1, _⟩ => rfl))

/-! ## The two matrix products -/

theorem lhs_tile_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_tile_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_tile_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_tile_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a 2000-row tile with a 128 × 128 matrix held by its first axis, into the zero accumulator: entry `(p, j)` is the
    sum over `k` of the tile's `(p, k)` times the matrix's `(k, j)`. -/
theorem mm_tile_apply (a : FVec Ideal S2000x128 .bf16) (w : FVec Ideal S128x128 .bf16) (p : Fin 2000) (j : Fin 128) :
    matmul dot_S2000x128_S128x128_S2000x128_1_0_0_1_n_n none a w (constant (F := Ideal) S2000x128 .f32 0x00000000#32) (ix2 p j)
      = ∑ k : Fin 128, a (ix2 p k) * w (ix2 k j) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p j) ((ValueIdx.contrEquiv1 dot_S2000x128_S128x128_S2000x128_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S2000x128_S128x128_S2000x128_1_0_0_1_n_n.rhsIdx (ix2 p j) ((ValueIdx.contrEquiv1 dot_S2000x128_S128x128_S2000x128_1_0_0_1_n_n 128 rfl rfl).symm k) = ix2 k j := funext fun a => Fin.ext (by
    match a with
    | ⟨0, _⟩ => exact (rhs_tile_0 _ _).trans hk
    | ⟨1, _⟩ => exact rhs_tile_1 _ _)
  rw [el, er]

theorem lhs_row_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem lhs_row_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
theorem rhs_row_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
theorem rhs_row_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

/-- The product of a 1-row tile with a 128 × 128 matrix held by its first axis, into the zero accumulator: entry `(p, j)` is the
    sum over `k` of the tile's `(p, k)` times the matrix's `(k, j)`. -/
theorem mm_row_apply (a : FVec Ideal S1x128 .bf16) (w : FVec Ideal S128x128 .bf16) (p : Fin 1) (j : Fin 128) :
    matmul dot_S1x128_S128x128_S1x128_1_0_0_1_n_n none a w (constant (F := Ideal) S1x128 .f32 0x00000000#32) (ix2 p j)
      = ∑ k : Fin 128, a (ix2 p k) * w (ix2 k j) := by
  simp only [matmul]
  rw [Ideal.matmul_constant_zero_apply, ← Equiv.sum_comp (ValueIdx.contrEquiv1 dot_S1x128_S128x128_S1x128_1_0_0_1_n_n 128 rfl rfl).symm]
  refine Finset.sum_congr rfl fun k _ => ?_
  have hk := ValueIdx.contrEquiv1_symm_val dot_S1x128_S128x128_S1x128_1_0_0_1_n_n 128 rfl rfl k
  have el : dot_S1x128_S128x128_S1x128_1_0_0_1_n_n.lhsIdx (ix2 p j) ((ValueIdx.contrEquiv1 dot_S1x128_S128x128_S1x128_1_0_0_1_n_n 128 rfl rfl).symm k) = ix2 p k := funext fun a => Fin.ext (by
    match a with
    | ⟨0, _⟩ => exact lhs_row_0 _ _
    | ⟨1, _⟩ => exact (lhs_row_1 _ _).trans hk)
  have er : dot_S1x128_S128x128_S1x128_1_0_0_1_n_n.rhsIdx (ix2 p j) ((ValueIdx.contrEquiv1 dot_S1x128_S128x128_S1x128_1_0_0_1_n_n 128 rfl rfl).symm k) = ix2 k j := funext fun a => Fin.ext (by
    match a with
    | ⟨0, _⟩ => exact (rhs_row_0 _ _).trans hk
    | ⟨1, _⟩ => exact rhs_row_1 _ _)
  rw [el, er]

/-! ## The layer normalisation of the tile's rows -/

/-- The mean of each row of a tile, as a column: the row's sum divided by the word 128.0. -/
def rowMean (v : FVec Ideal S2000x128 .f32) : FVec Ideal S2000x1 .f32 :=
  divf (shapeCast S2000x1 (multiReduction (F := Ideal) .add [1] S2000 v 0x00000000#32 Facts₀.reduces_S2000x128_S2000 (.inl rfl) rfl)
      Facts₀.shapeCasts_S2000_S2000x1)
    (broadcast S2000x1 (Scalar.ofBits (F := Ideal) .f32 0x43000000#32))

theorem rowMean_apply (v : FVec Ideal S2000x128 .f32) (p : Fin 2000) (u : Fin 1) :
    rowMean v (ix2 p u) = Cert.Spec.mean128 (fun k => v (ix2 p k)) := by
  show Ideal.div (shapeCast S2000x1 _ _ (ix2 p u)) Cert.Spec.c128 = Ideal.div _ Cert.Spec.c128
  exact congrArg (fun s => Ideal.div s Cert.Spec.c128)
    ((shapeCast_a_a1_apply _ _ p u).trans (rowSum_apply v _ _ _ p))

/-- A tile with each row's mean taken off. -/
def cen (v : FVec Ideal S2000x128 .f32) : FVec Ideal S2000x128 .f32 :=
  subf v (broadcastTo S2000x128 (rowMean v) Facts₀.broadcasts_S2000x1_S2000x128)

theorem cen_apply (v : FVec Ideal S2000x128 .f32) (p : Fin 2000) (i : Fin 128) :
    cen v (ix2 p i) = v (ix2 p i) - Cert.Spec.mean128 (fun k => v (ix2 p k)) := by
  show v (ix2 p i) - broadcastTo S2000x128 (rowMean v) _ (ix2 p i) = _
  exact congrArg (fun s => v (ix2 p i) - s) ((broadcastTo_a1_ab_apply _ _ p i).trans (rowMean_apply v p 0))

/-- The normalised tile: each centred row times the reciprocal square root of its variance plus epsilon. -/
def nrm (v : FVec Ideal S2000x128 .f32) : FVec Ideal S2000x128 .f32 :=
  mulf (cen v) (broadcastTo S2000x128
    (rsqrt (addf (rowMean (mulf (cen v) (cen v))) (broadcast S2000x1 (Scalar.ofBits (F := Ideal) .f32 0x3727C5AC#32))))
    Facts₀.broadcasts_S2000x1_S2000x128)

theorem nrm_apply (v : FVec Ideal S2000x128 .f32) (p : Fin 2000) (i : Fin 128) :
    nrm v (ix2 p i)
      = (v (ix2 p i) - Cert.Spec.mean128 (fun k => v (ix2 p k)))
        * Ideal.rsqrt (Cert.Spec.mean128 (fun k => (v (ix2 p k) - Cert.Spec.mean128 (fun k => v (ix2 p k)))
            * (v (ix2 p k) - Cert.Spec.mean128 (fun k => v (ix2 p k)))) + Cert.Spec.eps) := by
  show cen v (ix2 p i) * broadcastTo S2000x128 _ _ (ix2 p i) = _
  rw [cen_apply]
  refine congrArg (fun s => (v (ix2 p i) - Cert.Spec.mean128 (fun k => v (ix2 p k))) * s) ?_
  refine (broadcastTo_a1_ab_apply _ _ p i).trans ?_
  show Ideal.rsqrt (rowMean (mulf (cen v) (cen v)) (ix2 p (0 : Fin 1)) + Cert.Spec.eps) = _
  rw [rowMean_apply]
  refine congrArg (fun s => Ideal.rsqrt (Cert.Spec.mean128 s + Cert.Spec.eps)) (funext fun k => ?_)
  show cen v (ix2 p k) * cen v (ix2 p k) = _
  rw [cen_apply]

/-! ## The combine of the two tiles -/

/-- The combine layer on the tile: (mean-neighbour tile times the left weight, plus the bias on every row) plus the hidden
    tile times the right weight. -/
def comb (x0 x1 : Vec Ideal S2000x128 .f32) (x2 x4 : Vec Ideal S128x128 .bf16) (x3 : Vec Ideal S128 .f32) : FVec Ideal S2000x128 .f32 :=
  addf
    (addf
      (matmul dot_S2000x128_S128x128_S2000x128_1_0_0_1_n_n none
        (truncf .bf16 (shapeCast S2000x128 x0 Facts₀.shapeCasts_S2000x128_S2000x128 : FVec Ideal S2000x128 .f32) Facts₀.bitsLt_bf16_f32)
        (shapeCast S128x128 x2 Facts₀.shapeCasts_S128x128_S128x128 : FVec Ideal S128x128 .bf16) (constant (F := Ideal) S2000x128 .f32 0x00000000#32))
      (broadcastTo S2000x128 (shapeCast S1x128 x3 Facts₀.shapeCasts_S128_S1x128 : FVec Ideal S1x128 .f32) Facts₀.broadcasts_S1x128_S2000x128))
    (matmul dot_S2000x128_S128x128_S2000x128_1_0_0_1_n_n none
      (truncf .bf16 (shapeCast S2000x128 x1 Facts₀.shapeCasts_S2000x128_S2000x128 : FVec Ideal S2000x128 .f32) Facts₀.bitsLt_bf16_f32)
      (shapeCast S128x128 x4 Facts₀.shapeCasts_S128x128_S128x128 : FVec Ideal S128x128 .bf16) (constant (F := Ideal) S2000x128 .f32 0x00000000#32))

theorem comb_apply (x0 x1 : Vec Ideal S2000x128 .f32) (x2 x4 : Vec Ideal S128x128 .bf16) (x3 : Vec Ideal S128 .f32)
    (p : Fin 2000) (i : Fin 128) :
    comb x0 x1 x2 x4 x3 (ix2 p i)
      = Cert.Spec.lin (fun k => x0 (ix2 p k)) (fun k => x1 (ix2 p k)) x2 x3 x4 i := by
  unfold comb
  rw [shapeCast_self, shapeCast_self, shapeCast_self, shapeCast_self]
  show (matmul dot_S2000x128_S128x128_S2000x128_1_0_0_1_n_n none _ _ _ (ix2 p i) + broadcastTo S2000x128 _ _ (ix2 p i))
      + matmul dot_S2000x128_S128x128_S2000x128_1_0_0_1_n_n none _ _ _ (ix2 p i) = _
  rw [mm_tile_apply, mm_tile_apply, rowB_apply]
  rfl

/-- The kernel's normalised tile is the normalisation of the combine. -/
theorem pay4_eq (x0 x1 : Vec Ideal S2000x128 .f32) (x2 x4 : Vec Ideal S128x128 .bf16) (x3 : Vec Ideal S128 .f32) :
    k1_pay4 (F := Ideal) x0 x1 x2 x4 x3 = nrm (comb x0 x1 x2 x4 x3) := rfl

/-! ## The scratch update, the reset, the output -/

/-- The scratch update read at column `k`: what the scratch held plus the column sum of the rectified gain-and-shift of the
    normalised tile `y`. -/
theorem pay1_apply (y : FVec Ideal S2000x128 .f32) (g bt : Vec Ideal S128 .f32) (xs : Vec Ideal S1x128 .f32) (k : Fin 128) :
    k1_pay1 (F := Ideal) y g bt xs (ix2 (0 : Fin 1) k)
      = xs (ix2 (0 : Fin 1) k) + ∑ p : Fin 2000, max (y (ix2 p k) * g (ix1 k) + bt (ix1 k)) Cert.Spec.zero := by
  unfold k1_pay1
  rw [shapeCast_self]
  show xs (ix2 (0 : Fin 1) k) + shapeCast S1x128 _ _ (ix2 (0 : Fin 1) k) = _
  refine congrArg (fun s => xs (ix2 (0 : Fin 1) k) + s) ?_
  refine (shapeCast_a_1a_apply _ _ (0 : Fin 1) k).trans ?_
  refine (colSum_apply _ _ _ _ k).trans ?_
  refine Finset.sum_congr rfl fun p _ => ?_
  show max (y (ix2 p k) * broadcastTo S2000x128 _ _ (ix2 p k) + broadcastTo S2000x128 _ _ (ix2 p k)) Cert.Spec.zero = _
  rw [rowB_apply, rowB_apply]

/-- The reset value is the zero word everywhere. -/
theorem pay3_apply (i : S1x128.Idx) : k1_pay3 (F := Ideal) i = Cert.Spec.zero := by
  unfold k1_pay3
  rw [shapeCast_self]
  rfl

/-- Entry `k` of the updated scratch: what it held plus the sum over the tile's rows `p` of entry `k` of the rectified
    layer-normalised combine of row `p` of the mean-neighbour tile `x0` and of the hidden tile `x1`. -/
theorem sc1_apply (x0 x1 : Vec Ideal S2000x128 .f32) (x2 : Vec Ideal S128x128 .bf16) (x3 : Vec Ideal S128 .f32) (x4 : Vec Ideal S128x128 .bf16) (x5 x6 : Vec Ideal S128 .f32) (xs : Vec Ideal S1x128 .f32) (k : Fin 128) :
    sc1 (F := Ideal) x0 x1 x2 x3 x4 x5 x6 xs (ix2 (0 : Fin 1) k)
      = xs (ix2 (0 : Fin 1) k) + ∑ p : Fin 2000, Cert.Spec.lnrelu
          (Cert.Spec.lin (fun i => x0 (ix2 p i)) (fun i => x1 (ix2 p i)) x2 x3 x4) x5 x6 k := by
  unfold sc1
  rw [pay4_eq]
  refine (pay1_apply _ x5 x6 xs k).trans ?_
  refine congrArg (fun s => xs (ix2 (0 : Fin 1) k) + s) (Finset.sum_congr rfl fun p _ => ?_)
  rw [nrm_apply]
  simp only [comb_apply]
  rfl

/-- The kernel's scale is the rational 1/50000, by the certificate's table of named constants. -/
theorem inv_50000 : Named.named (F := Ideal) κ "inv_50000" (φ := .f32) 0x37A7C5AC#32 = ((1 / 50000 : ℝ) : EReal) :=
  IdealRules.named_const.ideal_named_scalar _ _ _ _ rfl

/-- Entry `j` of the output value: the scratch's entries scaled by the named 1/50000, times the output weight, plus the
    output bias. -/
theorem o1_apply (xs : Vec Ideal S1x128 .f32) (x7 : Vec Ideal S128x128 .bf16) (x8 : Vec Ideal S128 .f32) (j : Fin 128) :
    o1 (F := Ideal) xs x7 x8 (ix2 (0 : Fin 1) j) = Cert.Spec.out (fun k => xs (ix2 (0 : Fin 1) k)) x7 x8 j := by
  unfold o1 k1_pay2
  rw [shapeCast_self]
  show matmul dot_S1x128_S128x128_S1x128_1_0_0_1_n_n none _ _ _ (ix2 (0 : Fin 1) j) + shapeCast S1x128 _ _ (ix2 (0 : Fin 1) j) = _
  rw [mm_row_apply, shapeCast_a_1a_apply]
  unfold Cert.Spec.out
  refine congrArg (fun s => s + x8 (ix1 j)) (Finset.sum_congr rfl fun k _ => ?_)
  show (xs (ix2 (0 : Fin 1) k) * Named.named (F := Ideal) κ "inv_50000" (φ := .f32) 0x37A7C5AC#32) * x7 (ix2 k j) = _
  rw [inv_50000]

end Cert.KernelIdeal.Hand

end
-- ==== Proof.KI.Val1.lean ====
/-
  Region 1's result array read at an index, over the extended reals: after the 25 grid points the [1,128] output array
  holds, at (0, j), the pooled mean of the rectified, normalised combine rows over ALL 50000 rows, times the output weight,
  plus the output bias. Three steps: each point's tiles are rows 2000 t … 2000 t + 1999 of the two row arrays and the
  whole of the seven weight and bias arrays; the running sum after point n is the sum of the column sums of the tiles
  0 … n, and 25 tiles of 2000 rows regroup into all 50000 rows; the one write-back, at the last point, covers the array.
-/
import proofs.«141488_j51153060495543_1_alg».proof.Proof.KI.Val1Pay
import Idealize.ShloMosaic.Lib.Pipeline.Value
import Idealize.ShloMosaic.Lib.ValueIdx
import Mathlib.Algebra.BigOperators.Fin
import Mathlib.Algebra.BigOperators.Intervals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-! ## The blocks a point reads -/

/-- Where the two row windows' blocks sit: block (t, 0). -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- Row `p` of the mean-neighbour tile at point `t` is row `2000 t + p` of the mean-neighbour array. -/
theorem iblk1_0_apply (c : Dev nD) (t : Fin cfg1.N) (p : Fin 2000) (i : Fin 128) (h : 2000 * t.val + p.val < 50000) :
    (iblk1 (F := Ideal) V c 0 t : Vec Ideal S2000x128 .f32) (ix2 p i)
      = (V c main_v25 : S50000x128.Idx → EReal) (ix2 ⟨2000 * t.val + p.val, h⟩ i) := by
  have hi := idx1_0 t
  unfold iblk1
  rw [View.read_apply]
  show V c main_v25 _ = V c main_v25 _
  congr 1
  funext a
  apply Fin.ext
  match a with
  | ⟨0, _⟩ => show win1_0.index t 0 * 2000 + 1 * p.val = 2000 * t.val + p.val; rw [hi.1]; omega
  | ⟨1, _⟩ => show win1_0.index t 1 * 128 + 1 * i.val = i.val; rw [hi.2]; omega

/-- Row `p` of the hidden tile at point `t` is row `2000 t + p` of the hidden array. -/
theorem iblk1_1_apply (c : Dev nD) (t : Fin cfg1.N) (p : Fin 2000) (i : Fin 128) (h : 2000 * t.val + p.val < 50000) :
    (iblk1 (F := Ideal) V c 1 t : Vec Ideal S2000x128 .f32) (ix2 p i)
      = (V c main_v2 : S50000x128.Idx → EReal) (ix2 ⟨2000 * t.val + p.val, h⟩ i) := by
  have hi := idx1_1 t
  unfold iblk1
  rw [View.read_apply]
  show V c main_v2 _ = V c main_v2 _
  congr 1
  funext a
  apply Fin.ext
  match a with
  | ⟨0, _⟩ => show win1_1.index t 0 * 2000 + 1 * p.val = 2000 * t.val + p.val; rw [hi.1]; omega
  | ⟨1, _⟩ => show win1_1.index t 1 * 128 + 1 * i.val = i.val; rw [hi.2]; omega

/-- The left weight: the window's one block is the whole array. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem iblk1_2_eq (c : Dev nD) (t : Fin cfg1.N) : iblk1 (F := Ideal) V c 2 t = V c main_v27 := by
  have hi := idx1_2 t
  funext x
  unfold iblk1
  rw [View.read_apply]
  show V c main_v27 _ = V c main_v27 _
  congr 1
  funext a
  apply Fin.ext
  match a with
  | ⟨0, _⟩ => show win1_2.index t 0 * 128 + 1 * (x 0).val = (x 0).val; rw [hi.1]; omega
  | ⟨1, _⟩ => show win1_2.index t 1 * 128 + 1 * (x 1).val = (x 1).val; rw [hi.2]; omega

/-- The left bias: the window's one block is the whole array. -/
theorem idx1_3 : ∀ t : Fin cfg1.N, win1_3.index t (0 : Fin 1) = 0 :=
  (by decide +kernel : ∀ t : Fin grid1.N, win1_3.index t (0 : Fin 1) = 0)
theorem iblk1_3_eq (c : Dev nD) (t : Fin cfg1.N) : iblk1 (F := Ideal) V c 3 t = V c main_arg5 := by
  have hi := idx1_3 t
  funext x
  unfold iblk1
  rw [View.read_apply]
  show V c main_arg5 _ = V c main_arg5 _
  congr 1
  funext a
  apply Fin.ext
  match a with
  | ⟨0, _⟩ => show win1_3.index t 0 * 128 + 1 * (x 0).val = (x 0).val; rw [hi]; omega

/-- The right weight: the window's one block is the whole array. -/
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem iblk1_4_eq (c : Dev nD) (t : Fin cfg1.N) : iblk1 (F := Ideal) V c 4 t = V c main_v29 := by
  have hi := idx1_4 t
  funext x
  unfold iblk1
  rw [View.read_apply]
  show V c main_v29 _ = V c main_v29 _
  congr 1
  funext a
  apply Fin.ext
  match a with
  | ⟨0, _⟩ => show win1_4.index t 0 * 128 + 1 * (x 0).val = (x 0).val; rw [hi.1]; omega
  | ⟨1, _⟩ => show win1_4.index t 1 * 128 + 1 * (x 1).val = (x 1).val; rw [hi.2]; omega

/-- The gain: the window's one block is the whole array. -/
theorem idx1_5 : ∀ t : Fin cfg1.N, win1_5.index t (0 : Fin 1) = 0 :=
  (by decide +kernel : ∀ t : Fin grid1.N, win1_5.index t (0 : Fin 1) = 0)
theorem iblk1_5_eq (c : Dev nD) (t : Fin cfg1.N) : iblk1 (F := Ideal) V c 5 t = V c main_arg7 := by
  have hi := idx1_5 t
  funext x
  unfold iblk1
  rw [View.read_apply]
  show V c main_arg7 _ = V c main_arg7 _
  congr 1
  funext a
  apply Fin.ext
  match a with
  | ⟨0, _⟩ => show win1_5.index t 0 * 128 + 1 * (x 0).val = (x 0).val; rw [hi]; omega

/-- The shift: the window's one block is the whole array. -/
theorem idx1_6 : ∀ t : Fin cfg1.N, win1_6.index t (0 : Fin 1) = 0 :=
  (by decide +kernel : ∀ t : Fin grid1.N, win1_6.index t (0 : Fin 1) = 0)
theorem iblk1_6_eq (c : Dev nD) (t : Fin cfg1.N) : iblk1 (F := Ideal) V c 6 t = V c main_arg8 := by
  have hi := idx1_6 t
  funext x
  unfold iblk1
  rw [View.read_apply]
  show V c main_arg8 _ = V c main_arg8 _
  congr 1
  funext a
  apply Fin.ext
  match a with
  | ⟨0, _⟩ => show win1_6.index t 0 * 128 + 1 * (x 0).val = (x 0).val; rw [hi]; omega

/-- The output weight: the window's one block is the whole array. -/
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem iblk1_7_eq (c : Dev nD) (t : Fin cfg1.N) : iblk1 (F := Ideal) V c 7 t = V c main_v31 := by
  have hi := idx1_7 t
  funext x
  unfold iblk1
  rw [View.read_apply]
  show V c main_v31 _ = V c main_v31 _
  congr 1
  funext a
  apply Fin.ext
  match a with
  | ⟨0, _⟩ => show win1_7.index t 0 * 128 + 1 * (x 0).val = (x 0).val; rw [hi.1]; omega
  | ⟨1, _⟩ => show win1_7.index t 1 * 128 + 1 * (x 1).val = (x 1).val; rw [hi.2]; omega

/-- The output bias: the window's one block is the whole array. -/
theorem idx1_8 : ∀ t : Fin cfg1.N, win1_8.index t (0 : Fin 1) = 0 :=
  (by decide +kernel : ∀ t : Fin grid1.N, win1_8.index t (0 : Fin 1) = 0)
theorem iblk1_8_eq (c : Dev nD) (t : Fin cfg1.N) : iblk1 (F := Ideal) V c 8 t = V c main_arg10 := by
  have hi := idx1_8 t
  funext x
  unfold iblk1
  rw [View.read_apply]
  show V c main_arg10 _ = V c main_arg10 _
  congr 1
  funext a
  apply Fin.ext
  match a with
  | ⟨0, _⟩ => show win1_8.index t 0 * 128 + 1 * (x 0).val = (x 0).val; rw [hi]; omega

/-! ## Tiles of rows regroup into all the rows -/

/-- `a` tiles of `b` consecutive terms are the first `a * b` terms, in any commutative monoid. -/
theorem sum_tiles {M : Type*} [AddCommMonoid M] (b : ℕ) (f : ℕ → M) :
    ∀ a : ℕ, ∑ s ∈ Finset.range a, ∑ p ∈ Finset.range b, f (b * s + p) = ∑ r ∈ Finset.range (a * b), f r
  | 0 => by simp
  | a + 1 => by
    rw [Finset.sum_range_succ, sum_tiles b f a, Nat.succ_mul, Finset.sum_range_add, Nat.mul_comm b a]

/-- Entry `k` of row `r` of the normalised, rectified combine layer on the core's arrays, as a function of every natural
    `r` (zero past the last row, which no sum below reaches). -/
def Yrow (c : Dev nD) (k : Fin 128) (r : ℕ) : EReal :=
  if h : r < 50000 then
    Cert.Spec.Y (V c main_v25) (V c main_v2) (V c main_v27) (V c main_arg5) (V c main_v29) (V c main_arg7) (V c main_arg8) ⟨r, h⟩ k
  else 0

/-- A row of the combine layer from the row's two entries' lists: what a point computes from row `p` of its two tiles is
    the specification's row, once the tiles' rows are the arrays' rows. -/
theorem Y_of_rows (mn h : Cert.Spec.Arr2 50000 128) (wl : Cert.Spec.Arr2 128 128) (bl : Cert.Spec.Arr1 128)
    (wr : Cert.Spec.Arr2 128 128) (g bt : Cert.Spec.Arr1 128) (r : Fin 50000) (k : Fin 128)
    (a b : Fin 128 → EReal) (ha : ∀ i, a i = mn (ix2 r i)) (hb : ∀ i, b i = h (ix2 r i)) :
    Cert.Spec.lnrelu (Cert.Spec.lin a b wl bl wr) g bt k = Cert.Spec.Y mn h wl bl wr g bt r k := by
  obtain rfl : a = fun i => mn (ix2 r i) := funext ha
  obtain rfl : b = fun i => h (ix2 r i) := funext hb
  rfl

/-- One point's update at entry `k`: what the scratch held plus the tile's 2000 rows' entries `k`. -/
theorem point_sum (c : Dev nD) (t : Fin cfg1.N) (xs : Vec Ideal S1x128 .f32) (k : Fin 128) :
    sc1 (F := Ideal) (iblk1 V c 0 t) (iblk1 V c 1 t) (iblk1 V c 2 t) (iblk1 V c 3 t) (iblk1 V c 4 t) (iblk1 V c 5 t) (iblk1 V c 6 t) xs (ix2 (0 : Fin 1) k)
      = xs (ix2 (0 : Fin 1) k) + ∑ p ∈ Finset.range 2000, Yrow V c k (2000 * t.val + p) := by
  refine (sc1_apply _ _ _ _ _ _ _ xs k).trans ?_
  congr 1
  rw [← Fin.sum_univ_eq_sum_range (fun p => Yrow V c k (2000 * t.val + p)) 2000]
  refine Finset.sum_congr rfl fun p _ => ?_
  have hN : cfg1.N = 25 := N_1
  have h : 2000 * t.val + p.val < 50000 := by have := t.isLt; have := p.isLt; omega
  rw [iblk1_2_eq V c t, iblk1_3_eq V c t, iblk1_4_eq V c t, iblk1_5_eq V c t, iblk1_6_eq V c t]
  unfold Yrow
  rw [dif_pos h]
  exact Y_of_rows _ _ _ _ _ _ _ ⟨_, h⟩ k _ _ (fun i => iblk1_0_apply V c t p i h) (fun i => iblk1_1_apply V c t p i h)

/-- The running sum after point `n`, at entry `k`: the entries `k` of the rows of the tiles `0 … n`. -/
theorem scAt1_apply (c : Dev nD) : ∀ (n : ℕ) (hn : n < cfg1.N) (k : Fin 128),
    scAt1 (F := Ideal) V c n hn (ix2 (0 : Fin 1) k)
      = ∑ s ∈ Finset.range (n + 1), ∑ p ∈ Finset.range 2000, Yrow V c k (2000 * s + p)
  | 0, hn, k => by
    rw [scAt1_zero]
    refine (point_sum V c ⟨0, hn⟩ _ k).trans ?_
    rw [pay3_apply, Finset.sum_range_one]
    show Cert.Spec.zero + _ = _
    rw [show Cert.Spec.zero = (0 : EReal) from Ideal.ofBits_zero_f32, zero_add]
  | n + 1, hn, k => by
    rw [scAt1_succ]
    refine (point_sum V c ⟨n + 1, hn⟩ _ k).trans ?_
    rw [scAt1_apply c n _ k, Finset.sum_range_succ _ (n + 1)]

/-- After the last point the running sum is the column sum over all 50000 rows. -/
theorem scAt1_last (c : Dev nD) (h24 : 24 < cfg1.N) (k : Fin 128) :
    scAt1 (F := Ideal) V c 24 h24 (ix2 (0 : Fin 1) k)
      = Cert.Spec.pooled (Cert.Spec.Y (V c main_v25) (V c main_v2) (V c main_v27) (V c main_arg5) (V c main_v29) (V c main_arg7) (V c main_arg8)) k := by
  rw [scAt1_apply V c 24 h24 k, sum_tiles 2000 _ 25]
  unfold Cert.Spec.pooled
  rw [show 25 * 2000 = 50000 from rfl, ← Fin.sum_univ_eq_sum_range (fun r => Yrow V c k r) 50000]
  refine Finset.sum_congr rfl fun r _ => ?_
  unfold Yrow
  rw [dif_pos r.isLt]

/-! ## The output array after the region -/

/-- The output window's one block is the whole [1,128] array, at every point. -/
theorem idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

/-- The last point, the only one that writes the output back. -/
abbrev val1_tl : Fin cfg1.N := ⟨24, by rw [show cfg1.N = 25 from N_1]; decide⟩

/-- What the last point stores: the output value of the running sum it has just completed. -/
def res1 (c : Dev nD) : Buf (Elt Ideal) ((c : Thread nD τ).loc main_v32) :=
  o1 (F := Ideal) (scAt1 V c val1_tl.val val1_tl.isLt) (iblk1 V c 7 val1_tl) (iblk1 V c 8 val1_tl)

/-- Any contents of the output array read through the output window's block are those contents. -/
theorem read_blk1_9 (c : Dev nD) (t : Fin cfg1.N) (X : Buf (Elt Ideal) ((c : Thread nD τ).loc main_v32)) :
    ((cfg1.win 9).blk t).view.read (Elt Ideal) X = X := by
  have hi := idx1_9 t
  funext x
  rw [View.read_apply]
  show X _ = X _
  congr 1
  funext a
  apply Fin.ext
  match a with
  | ⟨0, _⟩ => show win1_9.index t 0 * 1 + 1 * (x 0).val = (x 0).val; rw [hi.1]; omega
  | ⟨1, _⟩ => show win1_9.index t 1 * 128 + 1 * (x 1).val = (x 1).val; rw [hi.2]; omega

/-- The block is written back whole: nothing of it is cut away. -/
theorem cut1_9 (t : Fin cfg1.N) (X : Vec Ideal S1x128 .f32) : (cfg1.win 9).cut (cfg1.grid.coords t) X = X := rfl

/-- The one write-back, at the last point, writes `res1`. -/
theorem flushed1_9 (c : Dev nD) (t : Fin cfg1.N) (hf : (cfg1.win 9).flush t = true) :
    (dat1 (F := Ideal) V c).flushed 9 t = ((cfg1.win 9).blk t).view.read (Elt Ideal) (res1 V c) := by
  have hN : cfg1.N = 25 := N_1
  have h1 : t.val = 24 := by have := (flush1_9 t).mp hf; have := t.isLt; omega
  obtain rfl : t = val1_tl := Fin.ext h1
  rw [read_blk1_9]
  show (cfg1.win 9).cut (cfg1.grid.coords val1_tl) ((dat1 V c).after 9 val1_tl) = _
  rw [after1_9, cut1_9]
  unfold res1
  rfl

/-- The last point's block covers the whole output array. -/
theorem cover1_9 (c : Dev nD) (i : ((cfg1.win 9).arr.view.loc (c.tc : Thread nD τ)).2.ty.Idx) :
    ∃ t : Fin cfg1.N, (cfg1.win 9).flush t = true ∧ i ∈ ((cfg1.win 9).blk t).view.set :=
  ⟨val1_tl, (flush1_9 val1_tl).mpr rfl, by
    show i ∈ ((View.whole main_v32).slice (win1_9.rect val1_tl)).set
    rw [View.set_slice_whole, Rect.mem_set_unit]
    intro a
    have h0 : (i 0 : Nat) < 1 := (i 0).isLt
    have h1 : (i 1 : Nat) < 128 := (i 1).isLt
    match a with
    | ⟨0, _⟩ =>
      show win1_9.index val1_tl 0 * win1_9.size 0 ≤ (i 0 : Nat) ∧ (i 0 : Nat) < win1_9.index val1_tl 0 * win1_9.size 0 + win1_9.xsize (grid1.coords val1_tl) 0
      rw [show win1_9.index val1_tl 0 * win1_9.size 0 = 0 from by decide +kernel, show win1_9.xsize (grid1.coords val1_tl) 0 = 1 from by decide +kernel]; omega
    | ⟨1, _⟩ =>
      show win1_9.index val1_tl 1 * win1_9.size 1 ≤ (i 1 : Nat) ∧ (i 1 : Nat) < win1_9.index val1_tl 1 * win1_9.size 1 + win1_9.xsize (grid1.coords val1_tl) 1
      rw [show win1_9.index val1_tl 1 * win1_9.size 1 = 0 from by decide +kernel, show win1_9.xsize (grid1.coords val1_tl) 1 = 128 from by decide +kernel]; omega⟩

/-- So the output array ends holding what the last point stored. -/
theorem arr1_9 (c : Dev nD) : (dat1 (F := Ideal) V c).arrAt 9 cfg1.N = res1 V c :=
  (dat1 V c).arrAt_eq_of_cover 9 (res1 V c) (flushed1_9 V c) (cover1_9 c)

/-- Entry (0, j) of the output array after the region: the specification's result on the core's nine arrays. -/
theorem arr1_9_apply (V : (c : Dev nD) → (b : Ref sig .tc) → Buf (Elt Ideal) ((c : Thread nD τ).loc b)) (c : Dev nD) (j : Fin 128) :
    (dat1 (F := Ideal) V c).arrAt 9 cfg1.N (ix2 (0 : Fin 1) j)
      = Cert.Spec.result (V c main_v25) (V c main_v2) (V c main_v27) (V c main_arg5) (V c main_v29) (V c main_arg7) (V c main_arg8) (V c main_v31) (V c main_arg10) j := by
  rw [arr1_9 V c]
  unfold res1
  refine (o1_apply _ _ _ j).trans ?_
  rw [iblk1_7_eq V c, iblk1_8_eq V c]
  unfold Cert.Spec.result
  exact congrArg (fun s : Fin 128 → EReal => Cert.Spec.out s (V c main_v31) (V c main_arg10) j)
    (funext fun k => scAt1_last V c val1_tl.isLt k)

end Cert.KernelIdeal.Hand

end
-- ==== Proof.Ref.lean ====
/-
  The reference program's result, read one operation at a time, is the shared specification.

  * The hidden array is relu (x · Wᵀ + b), entry by entry.
  * With the mean-neighbour array and the hidden array kept as they are, each row of the combine layer is the
    specification's row (two 128-term products, a bias), its layer normalisation (mean, mean of squared deviations,
    reciprocal square root, gain, shift) and relu are the specification's, and the result is the column sums over all
    50000 rows, times 1/50000, times the output weight, plus the output bias.
  * The one literal that is evaluated is the divisor 50000; the zero word starts every sum.
-/
import proofs.«141488_j51153060495543_1_alg».proof.Proof.Gen.ReferenceIdeal.Read
import proofs.«141488_j51153060495543_1_alg».proof.Proof.Spec
import Idealize.ShloMosaic.PureOps.Ideal.Laws
import Idealize.ShloMosaic.Lib.ValueIdx

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.SL.Sem

/-- The word 50000.0 is the real number 50000. -/
theorem ofBits_50000 : Ideal.ofBits .f32 0x47435000#32 = ((50000 : ℝ) : EReal) := by
  simp [Ideal.ofBits, Ideal.ieee, -EReal.coe_mul]; norm_num

variable (x0 : (⟨S50000x1024, .f32⟩ : BufTy).Contents (Elt Ideal))
  (x1 : (⟨S2x1600000, .i32⟩ : BufTy).Contents (Elt Ideal))
  (x2 : (⟨S128x1024, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x6 : (⟨S128x128, .f32⟩ : BufTy).Contents (Elt Ideal))
  (x7 x8 : (⟨S128, .f32⟩ : BufTy).Contents (Elt Ideal))
  (x9 : (⟨S128x128, .f32⟩ : BufTy).Contents (Elt Ideal))
  (x10 : (⟨S128, .f32⟩ : BufTy).Contents (Elt Ideal))

/-- The hidden array: relu of the projection plus the bias, entry by entry. -/
theorem ref_h :
    val_main_v5 (F := Ideal) x0 x2 x3 = Cert.Spec.Harr x0 (val_main_v0 (F := Ideal) x2) x3 := by
  funext i
  have el : ∀ k : Fin 1024, lidx_main_v1 i k = ix2 (i 0) k := fun k =>
    funext fun a => Fin.ext (by match a with | ⟨0, _⟩ => rfl | ⟨1, _⟩ => rfl)
  have er : ∀ k : Fin 1024, ridx_main_v1 i k = ix2 k (i 1) := fun k =>
    funext fun a => Fin.ext (by match a with | ⟨0, _⟩ => rfl | ⟨1, _⟩ => rfl)
  have eb : idx_main_v2 (idx_main_v3 i) = ix1 (i 1) :=
    funext fun a => Fin.ext (by match a with | ⟨0, _⟩ => rfl)
  rw [val_main_v5_apply, val_main_v4_apply, val_main_v1_apply, val_main_v3_apply, val_main_v2_apply,
    val_main_call0_v0_apply, val_main_call0_cst_apply]
  simp only [Ideal.maximumf_def, Ideal.addf_def, Ideal.ofBits_def, el, er, eb]
  rfl

local notation "𝐦" => val_main_v28 (F := Ideal) x0 x1 x2 x3
local notation "𝐡" => val_main_v5 (F := Ideal) x0 x2 x3
local notation "𝐥" => val_main_v29 (F := Ideal) x4
local notation "𝐫" => val_main_v34 (F := Ideal) x6
local notation "𝐨" => val_main_v66 (F := Ideal) x9
local notation "𝐯" => val_main_v36 (F := Ideal) x0 x1 x2 x3 x4 x5 x6

/-- One entry of the combine layer: the mean-neighbour row times the left weight plus the left bias, plus the hidden
    row times the right weight. -/
theorem lin_at (r : Fin 50000) (j : Fin 128) :
    𝐯 (ix2 r j) = Cert.Spec.lin (fun k => 𝐦 (ix2 r k)) (fun k => 𝐡 (ix2 r k)) 𝐥 x5 𝐫 j := by
  have e1 : ∀ k : Fin 128, lidx_main_v30 (ix2 r j) k = ix2 r k := fun k => funext fun a => Fin.ext (by match a with | ⟨0, _⟩ => rfl | ⟨1, _⟩ => rfl)
  have e2 : ∀ k : Fin 128, ridx_main_v30 (ix2 r j) k = ix2 k j := fun k => funext fun a => Fin.ext (by match a with | ⟨0, _⟩ => rfl | ⟨1, _⟩ => rfl)
  have e3 : ∀ k : Fin 128, lidx_main_v35 (ix2 r j) k = ix2 r k := fun k => funext fun a => Fin.ext (by match a with | ⟨0, _⟩ => rfl | ⟨1, _⟩ => rfl)
  have e4 : ∀ k : Fin 128, ridx_main_v35 (ix2 r j) k = ix2 k j := fun k => funext fun a => Fin.ext (by match a with | ⟨0, _⟩ => rfl | ⟨1, _⟩ => rfl)
  have e5 : idx_main_v31 (idx_main_v32 (ix2 r j)) = ix1 j := funext fun a => Fin.ext (by match a with | ⟨0, _⟩ => rfl)
  rw [val_main_v36_apply, val_main_v33_apply, val_main_v30_apply, val_main_v32_apply, val_main_v31_apply,
    val_main_v35_apply]
  simp only [Ideal.addf_def, e1, e2, e3, e4, e5]
  rfl

/-- The row mean: the row's sum divided by the word 128.0. -/
theorem mean_at (r : Fin 50000) (c : Fin 1) :
    val_main_v40 (F := Ideal) x0 x1 x2 x3 x4 x5 x6 (ix2 r c) = Cert.Spec.mean128 (fun j => 𝐯 (ix2 r j)) := by
  have e1 : ∀ k : Fin 128, idx_main_v37 (idx_main_v38 (ix2 r c)) k = ix2 r k := fun k => funext fun a => Fin.ext (by match a with | ⟨0, _⟩ => rfl | ⟨1, _⟩ => rfl)
  rw [val_main_v40_apply, val_main_v38_apply, val_main_v37_apply, val_main_v39_apply, val_main_cst_5_apply,
    val_main_cst_4_apply]
  simp only [Ideal.hostDivf_def, Ideal.ofBits_def, Ideal.ofBits_zero_f32, zero_add, e1]
  rfl

/-- The deviation from the row mean, as the variance reads it. -/
theorem dev_at (r : Fin 50000) (j : Fin 128) :
    val_main_v42 (F := Ideal) x0 x1 x2 x3 x4 x5 x6 (ix2 r j)
      = 𝐯 (ix2 r j) - Cert.Spec.mean128 (fun j' => 𝐯 (ix2 r j')) := by
  have e1 : idx_main_v41 (ix2 r j) = ix2 r (0 : Fin 1) := funext fun a => Fin.ext (by match a with | ⟨0, _⟩ => rfl | ⟨1, _⟩ => rfl)
  rw [val_main_v42_apply, val_main_v41_apply, e1, mean_at]
  rfl

/-- The deviation from the row mean, as the normalisation reads it. -/
theorem dev'_at (r : Fin 50000) (j : Fin 128) :
    val_main_v49 (F := Ideal) x0 x1 x2 x3 x4 x5 x6 (ix2 r j)
      = 𝐯 (ix2 r j) - Cert.Spec.mean128 (fun j' => 𝐯 (ix2 r j')) := by
  have e1 : idx_main_v48 (ix2 r j) = ix2 r (0 : Fin 1) := funext fun a => Fin.ext (by match a with | ⟨0, _⟩ => rfl | ⟨1, _⟩ => rfl)
  rw [val_main_v49_apply, val_main_v48_apply, e1, mean_at]
  rfl

/-- The row variance: the mean of the squared deviations. -/
theorem var_at (r : Fin 50000) (c : Fin 1) :
    val_main_v47 (F := Ideal) x0 x1 x2 x3 x4 x5 x6 (ix2 r c)
      = Cert.Spec.mean128 (fun k => (𝐯 (ix2 r k) - Cert.Spec.mean128 (fun j' => 𝐯 (ix2 r j')))
          * (𝐯 (ix2 r k) - Cert.Spec.mean128 (fun j' => 𝐯 (ix2 r j')))) := by
  have e1 : ∀ k : Fin 128, idx_main_v44 (idx_main_v45 (ix2 r c)) k = ix2 r k := fun k => funext fun a => Fin.ext (by match a with | ⟨0, _⟩ => rfl | ⟨1, _⟩ => rfl)
  have h0 : val_main_v47 (F := Ideal) x0 x1 x2 x3 x4 x5 x6 (ix2 r c)
      = Cert.Spec.mean128 (fun k => val_main_v43 (F := Ideal) x0 x1 x2 x3 x4 x5 x6 (ix2 r k)) := by
    rw [val_main_v47_apply, val_main_v45_apply, val_main_v44_apply, val_main_v46_apply, val_main_cst_7_apply,
      val_main_cst_6_apply]
    simp only [Ideal.hostDivf_def, Ideal.ofBits_def, Ideal.ofBits_zero_f32, zero_add, e1]
    rfl
  rw [h0]
  exact congrArg Cert.Spec.mean128 (funext fun k => by rw [val_main_v43_apply, dev_at]; rfl)

/-- One entry of the normalised, rectified combine layer. -/
theorem Y_at (r : Fin 50000) (j : Fin 128) :
    val_main_v61 (F := Ideal) x0 x1 x2 x3 x4 x5 x6 x7 x8 (ix2 r j) = Cert.Spec.Y 𝐦 𝐡 𝐥 x5 𝐫 x7 x8 r j := by
  have e1 : idx_main_v53 (ix2 r j) = ix2 r (0 : Fin 1) := funext fun a => Fin.ext (by match a with | ⟨0, _⟩ => rfl | ⟨1, _⟩ => rfl)
  have e2 : idx_main_v55 (idx_main_v56 (ix2 r j)) = ix1 j := funext fun a => Fin.ext (by match a with | ⟨0, _⟩ => rfl)
  have e3 : idx_main_v58 (idx_main_v59 (ix2 r j)) = ix1 j := funext fun a => Fin.ext (by match a with | ⟨0, _⟩ => rfl)
  rw [val_main_v61_apply, val_main_v60_apply, val_main_v57_apply, val_main_v54_apply, val_main_v53_apply, e1,
    val_main_v52_apply, val_main_v51_apply, val_main_v50_apply, val_main_cst_8_apply, val_main_v56_apply,
    val_main_v55_apply, e2, val_main_v59_apply, val_main_v58_apply, e3, val_main_call1_v0_apply,
    val_main_call1_cst_apply, dev'_at, var_at]
  simp only [Ideal.maximumf_def, Ideal.addf_def, Ideal.mulf_def, Ideal.hostUnary_rsqrt_def, Ideal.ofBits_def, lin_at]
  rfl

/-- The result: the column sums of the normalised layer over all rows, times 1/50000, times the output weight, plus
    the output bias. -/
theorem ref_result (j : Fin 128) :
    val_main_v69 (F := Ideal) x0 x1 x2 x3 x4 x5 x6 x7 x8 x9 x10 (ix2 (0 : Fin 1) j)
      = Cert.Spec.result 𝐦 𝐡 𝐥 x5 𝐫 x7 x8 𝐨 x10 j := by
  have e1 : ∀ k : Fin 128, lidx_main_v67 (ix2 (0 : Fin 1) j) k = ix2 (0 : Fin 1) k := fun k => funext fun a => Fin.ext (by match a with | ⟨0, _⟩ => rfl | ⟨1, _⟩ => rfl)
  have e2 : ∀ k : Fin 128, ridx_main_v67 (ix2 (0 : Fin 1) j) k = ix2 k j := fun k => funext fun a => Fin.ext (by match a with | ⟨0, _⟩ => rfl | ⟨1, _⟩ => rfl)
  have e3 : idx_main_v68 (ix2 (0 : Fin 1) j) = ix1 j := funext fun a => Fin.ext (by match a with | ⟨0, _⟩ => rfl)
  have e4 : ∀ k : Fin 128, idx_main_v63 (ix2 (0 : Fin 1) k) = ix1 k := fun k => funext fun a => Fin.ext (by match a with | ⟨0, _⟩ => rfl)
  have e5 : ∀ (k : Fin 128) (r : Fin 50000), idx_main_v62 (ix1 k) r = ix2 r k := fun k r => funext fun a => Fin.ext (by match a with | ⟨0, _⟩ => rfl | ⟨1, _⟩ => rfl)
  rw [val_main_v69_apply, val_main_v67_apply, val_main_v68_apply, e3]
  simp only [e1, e2, val_main_v65_apply, val_main_v63_apply, e4, val_main_v62_apply, e5, val_main_v64_apply,
    val_main_cst_10_apply, val_main_cst_9_apply, Y_at, Ideal.addf_def, Ideal.hostDivf_def, Ideal.ofBits_def,
    Ideal.ofBits_zero_f32, zero_add, ofBits_50000, Ideal.div_coe (by norm_num : (50000 : ℝ) ≠ 0)]
  rfl

end Cert.ReferenceIdeal.RefValue

end
-- ==== Proof.Bridge.lean ====
/-
  The two sides are one function. The kernel's result array, after both regions and the host operations between
  them, is the specification's result of the mean-neighbour array and the hidden array as the combine region finds them;
  the hidden array is relu (x · Wᵀ + b) of the arguments, and the mean-neighbour array the closed gather / segment-sum
  function of it and of the edge list. The reference's result is the same specification of ITS hidden and mean-neighbour
  arrays, which are the same functions of the arguments: the transposed weights and that closed function are, operation
  for operation, the terms the kernel's host operations compute.
-/
import proofs.«141488_j51153060495543_1_alg».proof.Proof.KI.HostVal
import proofs.«141488_j51153060495543_1_alg».proof.Proof.KI.Val0
import proofs.«141488_j51153060495543_1_alg».proof.Proof.KI.Val1
import proofs.«141488_j51153060495543_1_alg».proof.Proof.Ref

set_option maxRecDepth 16384

noncomputable section

namespace Cert.Bridge

open Idealize.ShloMosaic Idealize.ShloMosaic.TcCoe Idealize.ShloMosaic.ValueIdx Idealize.SL.Sem
open Cert.KernelIdeal.Hand
open Cert.ReferenceIdeal.Read (val_main_v0 val_main_v5 val_main_v28 val_main_v29 val_main_v34 val_main_v66 val_main_v69)

/-- The reference's transposed projection weight is the kernel's. -/
theorem trW_ref (x2 : (⟨Cert.KernelIdeal.S128x1024, .f32⟩ : BufTy).Contents (Elt Ideal)) :
    trW (F := Ideal) x2 = val_main_v0 (F := Ideal) x2 := rfl

/-- The reference's transposed left, right and output weights are the kernel's. -/
theorem tr128_ref_l (x : (⟨Cert.KernelIdeal.S128x128, .f32⟩ : BufTy).Contents (Elt Ideal)) :
    tr128 (F := Ideal) x = val_main_v29 (F := Ideal) x := rfl
theorem tr128_ref_r (x : (⟨Cert.KernelIdeal.S128x128, .f32⟩ : BufTy).Contents (Elt Ideal)) :
    tr128 (F := Ideal) x = val_main_v34 (F := Ideal) x := rfl
theorem tr128_ref_o (x : (⟨Cert.KernelIdeal.S128x128, .f32⟩ : BufTy).Contents (Elt Ideal)) :
    tr128 (F := Ideal) x = val_main_v66 (F := Ideal) x := rfl

/-- The reference's mean-neighbour array is the kernel's closed function of the reference's hidden array. -/
theorem glue_ref (x0 : (⟨Cert.KernelIdeal.S50000x1024, .f32⟩ : BufTy).Contents (Elt Ideal)) (x1 : (⟨Cert.KernelIdeal.S2x1600000, .i32⟩ : BufTy).Contents (Elt Ideal))
    (x2 : (⟨Cert.KernelIdeal.S128x1024, .f32⟩ : BufTy).Contents (Elt Ideal)) (x3 : (⟨Cert.KernelIdeal.S128, .f32⟩ : BufTy).Contents (Elt Ideal)) :
    val_main_v28 (F := Ideal) x0 x1 x2 x3 = glueK (val_main_v5 (F := Ideal) x0 x2 x3) x1 := rfl

variable (m : (ℓ : Loc Cert.KernelIdeal.nD Cert.KernelIdeal.τ Cert.KernelIdeal.sig) → Buf (Elt Ideal) ℓ) (ρ : Dev Cert.KernelIdeal.nD → PrngReg)

/-- The hidden array the projection region leaves is the reference's. -/
theorem hidden_eq (c : Dev Cert.KernelIdeal.nD) :
    (dat0 (F := Ideal) (V1 m ρ) c).arrAt 3 Cert.KernelIdeal.cfg0.N
      = val_main_v5 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  rw [Cert.ReferenceIdeal.RefValue.ref_h]
  funext i
  obtain ⟨r, j, rfl⟩ : ∃ (r : Fin 50000) (j : Fin 128), i = ix2 r j := ⟨i 0, i 1, eq_ix2 i⟩
  rw [arr0_3_apply, V1_arg0, V1_arg3, V1_v1, trW_ref]
  rfl

/-- THE BRIDGE: the kernel's result array is the reference's result term of the same arguments. -/
theorem result_eq (c : Dev Cert.KernelIdeal.nD) :
    (dat1 (F := Ideal) (V3 m ρ) c).arrAt 9 Cert.KernelIdeal.cfg1.N
      = val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  funext i
  obtain ⟨a, j, rfl⟩ : ∃ (a : Fin 1) (j : Fin 128), i = ix2 a j := ⟨i 0, i 1, eq_ix2 i⟩
  obtain rfl : a = 0 := Subsingleton.elim _ _
  rw [arr1_9_apply, Cert.ReferenceIdeal.RefValue.ref_result]
  rw [V3_v25, V3_v2, V3_v27, V3_arg5, V3_v29, V3_arg7, V3_arg8, V3_v31, V3_arg10, hidden_eq, glue_ref,
    tr128_ref_l, tr128_ref_r, tr128_ref_o]

end Cert.Bridge

end
-- ==== Proof.lean ====
/-
  The certificate's five claims.

  Both programs compute, for a graph of 50000 nodes and 1.6 million edges: hidden features relu (x · Wᵀ + b); the mean
  of each node's in-neighbours' hidden rows (a gather of source rows, a segment sum and a segment count over target
  nodes, the quotient by the count clamped at one); a combine layer, layer normalisation and relu per node; the mean
  over all nodes; and an output projection. The kernel does the projection and the combine-to-output stages in two
  pipelined regions of 25 tiles of 2000 rows and the neighbour mean on the host between them; the reference does
  everything on the host.

  Frames: each region's body runs at every grid point from its window blocks (the combine region also carries a
  running [1,128] sum in a scratch buffer, held by the region's invariant at its exact contents), the host operations
  run between, and every argument array ends as launched; the same text serves the word-level program and the idealized
  one, which differ in one constant. The idealized program names that constant 1/50000 (the one ledger entry). Over the
  extended reals the two results are one function of the arguments: the kernel's tile-by-tile sum of column sums is the
  reference's sum over all rows (a commutative sum regrouped), its product with the named 1/50000 is the reference's
  quotient by 50000, matrix products and lane sums are plain sums on both sides, and a change of float format is the
  identity. No law used needs finiteness, so the precondition is never opened.
-/
import proofs.«141488_j51153060495543_1_alg».proof.Defs
import proofs.«141488_j51153060495543_1_alg».proof.Proof.Gen.Kernel
import proofs.«141488_j51153060495543_1_alg».proof.Proof.Gen.KernelIdeal
import proofs.«141488_j51153060495543_1_alg».proof.Proof.Gen.ReferenceIdeal
import proofs.«141488_j51153060495543_1_alg».proof.Proof.Gen.Pre_finite_inputs
import proofs.«141488_j51153060495543_1_alg».proof.Proof.Gen.ReferenceIdeal.Run
import proofs.«141488_j51153060495543_1_alg».proof.Proof.Gen.ReferenceIdeal.Read
import proofs.«141488_j51153060495543_1_alg».proof.Proof.K.Body0
import proofs.«141488_j51153060495543_1_alg».proof.Proof.K.Body1
import proofs.«141488_j51153060495543_1_alg».proof.Proof.K.Run
import proofs.«141488_j51153060495543_1_alg».proof.Proof.KI.Body0
import proofs.«141488_j51153060495543_1_alg».proof.Proof.KI.Body1
import proofs.«141488_j51153060495543_1_alg».proof.Proof.KI.Run
import proofs.«141488_j51153060495543_1_alg».proof.Proof.Bridge
import Idealize.ShloMosaic.PureOps.IdealRules
import Idealize.ShloMosaic.Adequacy
import Idealize.ShloMosaic.Init

noncomputable section

namespace Cert.Proof

open Idealize.ShloMosaic Idealize.SL.Sem

/-- The word-level program runs and leaves its arguments as launched: the run of its four segments, read at the arguments. -/
theorem frame_k : Cert.frame_Kernel := fun m ρ _ =>
  (θ_run (Cert.Kernel.defs (F := Bits)) _ _).mono (fun _ h c => (h c).2)
    (Cert.Kernel.Hand.run_named (F := Bits) m ρ (fun V c => Cert.Kernel.Hand.body_obligation0 V c)
      (fun V c => Cert.Kernel.Hand.body_obligation1 V c))

/-- The idealized program likewise. -/
theorem frame_ki : Cert.frame_KernelIdeal := fun m ρ _ =>
  (θ_run (Cert.KernelIdeal.defs (F := Ideal)) _ _).mono (fun _ h c => (h c).2)
    (Cert.KernelIdeal.Hand.run_named (F := Ideal) m ρ (fun V c => Cert.KernelIdeal.Hand.body_obligation0 V c)
      (fun V c => Cert.KernelIdeal.Hand.body_obligation1 V c))

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the certificate's table gives the scale of the pooled sum the value 1/50000. -/
theorem preserves : Cert.preserves_Kernel_KernelIdeal :=
  IdealRules.named_const.statement Cert.KernelIdeal.κ "inv_50000" .f32 0x37A7C5AC#32 ((1 / 50000 : ℝ) : EReal) rfl

/-- Over the extended reals the idealized kernel ends with its result array at what the combine region's one write-back
    leaves, the reference at its composed term, and the two are equal as functions of arguments that agree. -/
theorem algebraic : Cert.algebraic_KernelIdeal_ReferenceIdeal := by
  intro m ρ m' ρ' _ hagree
  refine ⟨fun c => (Cert.KernelIdeal.Hand.dat1 (F := Ideal) (Cert.KernelIdeal.Hand.V3 m ρ) c).arrAt 9 Cert.KernelIdeal.cfg1.N,
    Cert.KernelIdeal.Hand.run_named (F := Ideal) m ρ (fun V c => Cert.KernelIdeal.Hand.body_obligation0 V c)
      (fun V c => Cert.KernelIdeal.Hand.body_obligation1 V c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
